-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x64x64 : Shape := ⟨4, ![64, 16, 64, 64]⟩
abbrev S3844x144x32 : Shape := ⟨3, ![3844, 144, 32]⟩
abbrev S_ : Shape := ⟨0, ![]⟩

class Facts : Prop where
  bcast_S_S64x16x64x64 : S_.BroadcastsInDim S64x16x64x64 (![] : Fin 0 → Fin S64x16x64x64.rank)
  reducesTo_S64x16x64x64_S_d0_1_2_3 : S64x16x64x64.ReducesTo [0, 1, 2, 3] S_
  h_S_ : 0 < S_.numel
  bcast_S_S3844x144x32 : S_.BroadcastsInDim S3844x144x32 (![] : Fin 0 → Fin S3844x144x32.rank)
  reducesTo_S3844x144x32_S_d0_1_2 : S3844x144x32.ReducesTo [0, 1, 2] S_

variable [Facts]

def fn {F : FTy → Type} [FloatOps F] (main_arg0 : FVec F S64x16x64x64 .f32) (main_arg1 : FVec F S3844x144x32 .f32) : IVec S_ 1 :=
  let main_v0 : FVec F S64x16x64x64 .f32 := Host.absf main_arg0
  let main_cst : FVec F S_ .f32 := constant S_ .f32 0x7F800000#32
  let main_v1 : FVec F S64x16x64x64 .f32 := broadcastInDim S64x16x64x64 ![] bcast_S_S64x16x64x64 main_cst
  let main_v2 : IVec S64x16x64x64 1 := cmpf .olt main_v0 main_v1
  let main_c : IVec S_ 1 := constantI S_ 1 1#1
  let main_v3 : IVec S_ 1 := (fun x v => Host.reduce IntOp.andi x v reducesTo_S64x16x64x64_S_d0_1_2_3 h_S_) main_v2 main_c
  let main_v4 : FVec F S3844x144x32 .f32 := Host.absf main_arg1
  let main_cst_0 : FVec F S_ .f32 := constant S_ .f32 0x7F800000#32
  let main_v5 : FVec F S3844x144x32 .f32 := broadcastInDim S3844x144x32 ![] bcast_S_S3844x144x32 main_cst_0
  let main_v6 : IVec S3844x144x32 1 := cmpf .olt main_v4 main_v5
  let main_c_1 : IVec S_ 1 := constantI S_ 1 1#1
  let main_v7 : IVec S_ 1 := (fun x v => Host.reduce IntOp.andi x v reducesTo_S3844x144x32_S_d0_1_2 h_S_) main_v6 main_c_1
  let main_v8 : IVec S_ 1 := andi main_v3 main_v7
  main_v8
-- ==== Kernel.lean ====
abbrev S64x16x64x64 : Shape := ⟨4, ![64, 16, 64, 64]⟩
abbrev S3844x144x32 : Shape := ⟨3, ![3844, 144, 32]⟩
abbrev S64x64x64x16 : Shape := ⟨4, ![64, 64, 64, 16]⟩
abbrev S64x64x1024 : Shape := ⟨3, ![64, 64, 1024]⟩
abbrev S62x62x16x3x3x32 : Shape := ⟨6, ![62, 62, 16, 3, 3, 32]⟩
abbrev S62x62x3x3x16x32 : Shape := ⟨6, ![62, 62, 3, 3, 16, 32]⟩
abbrev S62x62x144x32 : Shape := ⟨4, ![62, 62, 144, 32]⟩
abbrev S62x62x32x144 : Shape := ⟨4, ![62, 62, 32, 144]⟩
abbrev S3844x32x144 : Shape := ⟨3, ![3844, 32, 144]⟩
abbrev S3844x32x64 : Shape := ⟨3, ![3844, 32, 64]⟩
abbrev S124x32x144 : Shape := ⟨3, ![124, 32, 144]⟩
abbrev S124x32x64 : Shape := ⟨3, ![124, 32, 64]⟩
abbrev S124x64x144 : Shape := ⟨3, ![124, 64, 144]⟩
abbrev S4x64x1024 : Shape := ⟨3, ![4, 64, 1024]⟩
abbrev S2x64x1024 : Shape := ⟨3, ![2, 64, 1024]⟩
abbrev S2x62x1024 : Shape := ⟨3, ![2, 62, 1024]⟩
abbrev S2x62x64x16 : Shape := ⟨4, ![2, 62, 64, 16]⟩
abbrev S124x64x16 : Shape := ⟨3, ![124, 64, 16]⟩
abbrev S62x62x32x64 : Shape := ⟨4, ![62, 62, 32, 64]⟩
abbrev S64x32x62x62 : Shape := ⟨4, ![64, 32, 62, 62]⟩

abbrev nBuf : Space → Nat
  | .hbm => 15
  | .vmem => 6
  | .smem => 0
  | _ => 0

abbrev bufTy : (tb : Table) → Fin (tcTables nBuf tb) → BufTy
  | .hbm, ⟨0, _⟩ => ⟨S64x16x64x64, .f32⟩
  | .hbm, ⟨1, _⟩ => ⟨S3844x144x32, .f32⟩
  | .hbm, ⟨2, _⟩ => ⟨S64x64x64x16, .f32⟩
  | .hbm, ⟨3, _⟩ => ⟨S64x64x1024, .f32⟩
  | .hbm, ⟨4, _⟩ => ⟨S64x64x1024, .bf16⟩
  | .hbm, ⟨5, _⟩ => ⟨S62x62x16x3x3x32, .f32⟩
  | .hbm, ⟨6, _⟩ => ⟨S62x62x3x3x16x32, .f32⟩
  | .hbm, ⟨7, _⟩ => ⟨S62x62x144x32, .f32⟩
  | .hbm, ⟨8, _⟩ => ⟨S62x62x32x144, .f32⟩
  | .hbm, ⟨9, _⟩ => ⟨S3844x32x144, .f32⟩
  | .hbm, ⟨10, _⟩ => ⟨S3844x32x144, .bf16⟩
  | .hbm, ⟨11, _⟩ => ⟨S3844x32x64, .bf16⟩
  | .hbm, ⟨12, _⟩ => ⟨S62x62x32x64, .bf16⟩
  | .hbm, ⟨13, _⟩ => ⟨S64x32x62x62, .bf16⟩
  | .hbm, ⟨14, _⟩ => ⟨S64x32x62x62, .f32⟩
  | .local _ .vmem, ⟨0, _⟩ => ⟨S64x64x1024, .bf16⟩
  | .local _ .vmem, ⟨1, _⟩ => ⟨S124x32x144, .bf16⟩
  | .local _ .vmem, ⟨2, _⟩ => ⟨S124x32x144, .bf16⟩
  | .local _ .vmem, ⟨3, _⟩ => ⟨S124x32x64, .bf16⟩
  | .local _ .vmem, ⟨4, _⟩ => ⟨S124x32x64, .bf16⟩
  | .local _ .vmem, ⟨5, _⟩ => ⟨S124x64x144, .bf16⟩
  | _, _ => ⟨S64x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![31], ![false]⟩

def k0_mult1 (i : grid0.Coords) : BitVec 32 :=
  let arg0 : BitVec 32 := BitVec.ofNat 32 (i 0).val
  let c2_i32 : BitVec 32 := 2#32
  let v0 : BitVec 32 := Scalar.muli arg0 c2_i32
  v0
def k0_off1 (i : grid0.Coords) : Fin 3 → Nat :=
  let arg0 : BitVec 32 := BitVec.ofNat 32 (i 0).val
  let c2_i32 : BitVec 32 := 2#32
  let v0 : BitVec 32 := Scalar.muli arg0 c2_i32
  let v1 : BitVec 32 := v0
  let v2 : Index := Scalar.indexCast v1
  let c0 : Index := 0#32
  let c0_0 : Index := 0#32
  ![v2.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x64x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S124x32x144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S124x32x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x16x64x64_S64x64x64x16_2_3_0_1 : S64x16x64x64.Transposes [2, 3, 0, 1] S64x64x64x16
  shapeCasts_S64x64x64x16_S64x64x1024 : S64x64x64x16.ShapeCasts S64x64x1024
  bitsLt_bf16_f32 : FTy.bits .bf16 < FTy.bits .f32
  shapeCasts_S3844x144x32_S62x62x16x3x3x32 : S3844x144x32.ShapeCasts S62x62x16x3x3x32
  transposes_S62x62x16x3x3x32_S62x62x3x3x16x32_0_1_3_4_2_5 : S62x62x16x3x3x32.Transposes [0, 1, 3, 4, 2, 5] S62x62x3x3x16x32
  shapeCasts_S62x62x3x3x16x32_S62x62x144x32 : S62x62x3x3x16x32.ShapeCasts S62x62x144x32
  transposes_S62x62x144x32_S62x62x32x144_0_1_3_2 : S62x62x144x32.Transposes [0, 1, 3, 2] S62x62x32x144
  shapeCasts_S62x62x32x144_S3844x32x144 : S62x62x32x144.ShapeCasts S3844x32x144
  h_S4x64x1024 : 0 < S4x64x1024.numel
  shapeCasts_S4x64x1024_S4x64x1024 : S4x64x1024.ShapeCasts S4x64x1024
  slices_S4x64x1024_o0_0_0_S2x64x1024 : S4x64x1024.Slices ![0, 0, 0] S2x64x1024
  slices_S2x64x1024_o0_0_0_S2x62x1024 : S2x64x1024.Slices ![0, 0, 0] S2x62x1024
  shapeCasts_S2x62x1024_S2x62x64x16 : S2x62x1024.ShapeCasts S2x62x64x16
  shapeCasts_S2x62x64x16_S124x64x16 : S2x62x64x16.ShapeCasts S124x64x16
  inb_S124x64x144_S124x64x16_0_0_0 : ∀ a, (![0, 0, 0] : Fin 3 → Nat) a + S124x64x16.size a ≤ S124x64x144.size a
  h_S124x64x16 : 0 < S124x64x16.numel
  shapeCasts_S124x64x16_S124x64x16 : S124x64x16.ShapeCasts S124x64x16
  packedbf16_S124x64x144_S124x64x16_0_0_0 : (Rect.unit (s := S124x64x144) ![0, 0, 0] S124x64x16.size inb_S124x64x144_S124x64x16_0_0_0).PackedRows (EltTy.packing .bf16)
  slices_S2x64x1024_o0_1_0_S2x62x1024 : S2x64x1024.Slices ![0, 1, 0] S2x62x1024
  inb_S124x64x144_S124x64x16_0_0_16 : ∀ a, (![0, 0, 16] : Fin 3 → Nat) a + S124x64x16.size a ≤ S124x64x144.size a
  packedbf16_S124x64x144_S124x64x16_0_0_16 : (Rect.unit (s := S124x64x144) ![0, 0, 16] S124x64x16.size inb_S124x64x144_S124x64x16_0_0_16).PackedRows (EltTy.packing .bf16)
  slices_S2x64x1024_o0_2_0_S2x62x1024 : S2x64x1024.Slices ![0, 2, 0] S2x62x1024
  inb_S124x64x144_S124x64x16_0_0_32 : ∀ a, (![0, 0, 32] : Fin 3 → Nat) a + S124x64x16.size a ≤ S124x64x144.size a
  packedbf16_S124x64x144_S124x64x16_0_0_32 : (Rect.unit (s := S124x64x144) ![0, 0, 32] S124x64x16.size inb_S124x64x144_S124x64x16_0_0_32).PackedRows (EltTy.packing .bf16)
  slices_S4x64x1024_o1_0_0_S2x64x1024 : S4x64x1024.Slices ![1, 0, 0] S2x64x1024
  inb_S124x64x144_S124x64x16_0_0_48 : ∀ a, (![0, 0, 48] : Fin 3 → Nat) a + S124x64x16.size a ≤ S124x64x144.size a
  packedbf16_S124x64x144_S124x64x16_0_0_48 : (Rect.unit (s := S124x64x144) ![0, 0, 48] S124x64x16.size inb_S124x64x144_S124x64x16_0_0_48).PackedRows (EltTy.packing .bf16)
  inb_S124x64x144_S124x64x16_0_0_64 : ∀ a, (![0, 0, 64] : Fin 3 → Nat) a + S124x64x16.size a ≤ S124x64x144.size a
  packedbf16_S124x64x144_S124x64x16_0_0_64 : (Rect.unit (s := S124x64x144) ![0, 0, 64] S124x64x16.size inb_S124x64x144_S124x64x16_0_0_64).PackedRows (EltTy.packing .bf16)
  inb_S124x64x144_S124x64x16_0_0_80 : ∀ a, (![0, 0, 80] : Fin 3 → Nat) a + S124x64x16.size a ≤ S124x64x144.size a
  packedbf16_S124x64x144_S124x64x16_0_0_80 : (Rect.unit (s := S124x64x144) ![0, 0, 80] S124x64x16.size inb_S124x64x144_S124x64x16_0_0_80).PackedRows (EltTy.packing .bf16)
  slices_S4x64x1024_o2_0_0_S2x64x1024 : S4x64x1024.Slices ![2, 0, 0] S2x64x1024
  inb_S124x64x144_S124x64x16_0_0_96 : ∀ a, (![0, 0, 96] : Fin 3 → Nat) a + S124x64x16.size a ≤ S124x64x144.size a
  packedbf16_S124x64x144_S124x64x16_0_0_96 : (Rect.unit (s := S124x64x144) ![0, 0, 96] S124x64x16.size inb_S124x64x144_S124x64x16_0_0_96).PackedRows (EltTy.packing .bf16)
  inb_S124x64x144_S124x64x16_0_0_112 : ∀ a, (![0, 0, 112] : Fin 3 → Nat) a + S124x64x16.size a ≤ S124x64x144.size a
  packedbf16_S124x64x144_S124x64x16_0_0_112 : (Rect.unit (s := S124x64x144) ![0, 0, 112] S124x64x16.size inb_S124x64x144_S124x64x16_0_0_112).PackedRows (EltTy.packing .bf16)
  inb_S124x64x144_S124x64x16_0_0_128 : ∀ a, (![0, 0, 128] : Fin 3 → Nat) a + S124x64x16.size a ≤ S124x64x144.size a
  packedbf16_S124x64x144_S124x64x16_0_0_128 : (Rect.unit (s := S124x64x144) ![0, 0, 128] S124x64x16.size inb_S124x64x144_S124x64x16_0_0_128).PackedRows (EltTy.packing .bf16)
  inb_S124x64x144_S124x64x144_0_0_0 : ∀ a, (![0, 0, 0] : Fin 3 → Nat) a + S124x64x144.size a ≤ S124x64x144.size a
  h_S124x64x144 : 0 < S124x64x144.numel
  inb_S124x32x144_S124x32x144_0_0_0 : ∀ a, (![0, 0, 0] : Fin 3 → Nat) a + S124x32x144.size a ≤ S124x32x144.size a
  h_S124x32x144 : 0 < S124x32x144.numel
  shapeCasts_S124x32x144_S124x32x144 : S124x32x144.ShapeCasts S124x32x144
  inb_S124x32x64_S124x32x64_0_0_0 : ∀ a, (![0, 0, 0] : Fin 3 → Nat) a + S124x32x64.size a ≤ S124x32x64.size a
  h_S124x32x64 : 0 < S124x32x64.numel
  packedbf16_S124x32x64_S124x32x64_0_0_0 : (Rect.unit (s := S124x32x64) ![0, 0, 0] S124x32x64.size inb_S124x32x64_S124x32x64_0_0_0).PackedRows (EltTy.packing .bf16)
  shapeCasts_S3844x32x64_S62x62x32x64 : S3844x32x64.ShapeCasts S62x62x32x64
  transposes_S62x62x32x64_S64x32x62x62_3_2_0_1 : S62x62x32x64.Transposes [3, 2, 0, 1] S64x32x62x62
  dot_S124x32x144_S124x64x144_S124x32x64_2_2_1_1_0_0_wf : DotDims.WF S124x32x144 S124x64x144 S124x32x64 [2] [2] [1] [1] [0] [0]
  hrank0 : 0 < grid0.rank
  k0_mult1_dvd : ∀ i : grid0.Coords, 2 ∣ (k0_mult1 i).toNat
  k0_off1_inb : ∀ i : grid0.Coords, ∀ a, (k0_off1 i) a + S4x64x1024.size a ≤ S64x64x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64x1024.size a ≤ S64x64x1024.size a
  hwx0_0 : ∀ i : grid0.Coords, EltTy.bits .bf16 = 32 ∨ (Rect.block (s := S64x64x1024) S64x64x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S124x32x144.size a ≤ S3844x32x144.size a
  hwx0_1 : ∀ i : grid0.Coords, EltTy.bits .bf16 = 32 ∨ (Rect.block (s := S3844x32x144) S124x32x144.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S124x32x64.size a ≤ S3844x32x64.size a
  hwx0_2 : ∀ i : grid0.Coords, EltTy.bits .bf16 = 32 ∨ (Rect.block (s := S3844x32x64) S124x32x64.size (cc0_transform_2 i) (hinb0_2 i)).WholeWords (EltTy.packing .bf16)

variable [Facts₀]

def dot_S124x32x144_S124x64x144_S124x32x64_2_2_1_1_0_0 : DotDims S124x32x144 S124x64x144 S124x32x64 where
  lhsContracting := [2]
  rhsContracting := [2]
  lhsNonContracting := [1]
  rhsNonContracting := [1]
  lhsBatch := [0]
  rhsBatch := [0]
  wf := dot_S124x32x144_S124x64x144_S124x32x64_2_2_1_1_0_0_wf

abbrev win0_0 : Pipeline.Window sig grid0 :=
  Pipeline.Window.ofSpec (Memref.whole main_v2) S64x64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S124x32x144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S124x32x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x16x64x64 : Shape := ⟨4, ![64, 16, 64, 64]⟩
abbrev S3844x144x32 : Shape := ⟨3, ![3844, 144, 32]⟩
abbrev S62 : Shape := ⟨1, ![62]⟩
abbrev S_ : Shape := ⟨0, ![]⟩
abbrev S62x1 : Shape := ⟨2, ![62, 1]⟩
abbrev S3 : Shape := ⟨1, ![3]⟩
abbrev S1x3 : Shape := ⟨2, ![1, 3]⟩
abbrev S62x3 : Shape := ⟨2, ![62, 3]⟩
abbrev S62x3x1x1 : Shape := ⟨4, ![62, 3, 1, 1]⟩
abbrev S1x1x62x3 : Shape := ⟨4, ![1, 1, 62, 3]⟩
abbrev S62x3x62x3 : Shape := ⟨4, ![62, 3, 62, 3]⟩
abbrev S62x3x62x3x1 : Shape := ⟨5, ![62, 3, 62, 3, 1]⟩
abbrev S62x3x62x3x2 : Shape := ⟨5, ![62, 3, 62, 3, 2]⟩
abbrev S64x16x62x3x62x3 : Shape := ⟨6, ![64, 16, 62, 3, 62, 3]⟩
abbrev S62x62x64x16x3x3 : Shape := ⟨6, ![62, 62, 64, 16, 3, 3]⟩
abbrev S3844x64x144 : Shape := ⟨3, ![3844, 64, 144]⟩
abbrev S3844x64x32 : Shape := ⟨3, ![3844, 64, 32]⟩
abbrev S62x62x64x32 : Shape := ⟨4, ![62, 62, 64, 32]⟩
abbrev S64x32x62x62 : Shape := ⟨4, ![64, 32, 62, 62]⟩

abbrev nBuf : Space → Nat
  | .hbm => 49
  | .vmem => 0
  | .smem => 0
  | _ => 0

abbrev bufTy : (tb : Table) → Fin (tcTables nBuf tb) → BufTy
  | .hbm, ⟨0, _⟩ => ⟨S64x16x64x64, .f32⟩
  | .hbm, ⟨1, _⟩ => ⟨S3844x144x32, .f32⟩
  | .hbm, ⟨2, _⟩ => ⟨S62, .i32⟩
  | .hbm, ⟨3, _⟩ => ⟨S_, .i32⟩
  | .hbm, ⟨4, _⟩ => ⟨S62, .i32⟩
  | .hbm, ⟨5, _⟩ => ⟨S62, .i32⟩
  | .hbm, ⟨6, _⟩ => ⟨S62x1, .i32⟩
  | .hbm, ⟨7, _⟩ => ⟨S3, .i32⟩
  | .hbm, ⟨8, _⟩ => ⟨S1x3, .i32⟩
  | .hbm, ⟨9, _⟩ => ⟨S62x3, .i32⟩
  | .hbm, ⟨10, _⟩ => ⟨S62x3, .i32⟩
  | .hbm, ⟨11, _⟩ => ⟨S62x3, .i32⟩
  | .hbm, ⟨12, _⟩ => ⟨S62, .i32⟩
  | .hbm, ⟨13, _⟩ => ⟨S_, .i32⟩
  | .hbm, ⟨14, _⟩ => ⟨S62, .i32⟩
  | .hbm, ⟨15, _⟩ => ⟨S62, .i32⟩
  | .hbm, ⟨16, _⟩ => ⟨S62x1, .i32⟩
  | .hbm, ⟨17, _⟩ => ⟨S3, .i32⟩
  | .hbm, ⟨18, _⟩ => ⟨S1x3, .i32⟩
  | .hbm, ⟨19, _⟩ => ⟨S62x3, .i32⟩
  | .hbm, ⟨20, _⟩ => ⟨S62x3, .i32⟩
  | .hbm, ⟨21, _⟩ => ⟨S62x3, .i32⟩
  | .hbm, ⟨22, _⟩ => ⟨S62x3x1x1, .i32⟩
  | .hbm, ⟨23, _⟩ => ⟨S1x1x62x3, .i32⟩
  | .hbm, ⟨24, _⟩ => ⟨S_, .i32⟩
  | .hbm, ⟨25, _⟩ => ⟨S62x3x1x1, .i32⟩
  | .hbm, ⟨26, _⟩ => ⟨S62x3x1x1, .i1⟩
  | .hbm, ⟨27, _⟩ => ⟨S_, .i32⟩
  | .hbm, ⟨28, _⟩ => ⟨S62x3x1x1, .i32⟩
  | .hbm, ⟨29, _⟩ => ⟨S62x3x1x1, .i32⟩
  | .hbm, ⟨30, _⟩ => ⟨S62x3x1x1, .i32⟩
  | .hbm, ⟨31, _⟩ => ⟨S_, .i32⟩
  | .hbm, ⟨32, _⟩ => ⟨S1x1x62x3, .i32⟩
  | .hbm, ⟨33, _⟩ => ⟨S1x1x62x3, .i1⟩
  | .hbm, ⟨34, _⟩ => ⟨S_, .i32⟩
  | .hbm, ⟨35, _⟩ => ⟨S1x1x62x3, .i32⟩
  | .hbm, ⟨36, _⟩ => ⟨S1x1x62x3, .i32⟩
  | .hbm, ⟨37, _⟩ => ⟨S1x1x62x3, .i32⟩
  | .hbm, ⟨38, _⟩ => ⟨S62x3x62x3, .i32⟩
  | .hbm, ⟨39, _⟩ => ⟨S62x3x62x3, .i32⟩
  | .hbm, ⟨40, _⟩ => ⟨S62x3x62x3x1, .i32⟩
  | .hbm, ⟨41, _⟩ => ⟨S62x3x62x3x1, .i32⟩
  | .hbm, ⟨42, _⟩ => ⟨S62x3x62x3x2, .i32⟩
  | .hbm, ⟨43, _⟩ => ⟨S64x16x62x3x62x3, .f32⟩
  | .hbm, ⟨44, _⟩ => ⟨S62x62x64x16x3x3, .f32⟩
  | .hbm, ⟨45, _⟩ => ⟨S3844x64x144, .f32⟩
  | .hbm, ⟨46, _⟩ => ⟨S3844x64x32, .f32⟩
  | .hbm, ⟨47, _⟩ => ⟨S62x62x64x32, .f32⟩
  | .hbm, ⟨48, _⟩ => ⟨S64x32x62x62, .f32⟩
  | _, _ => ⟨S64x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_1 : Ref sig .tc := ⟨.hbm, 24, rfl⟩
abbrev main_v20 : Ref sig .tc := ⟨.hbm, 25, rfl⟩
abbrev main_v21 : Ref sig .tc := ⟨.hbm, 26, rfl⟩
abbrev main_c_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_v25 : Ref sig .tc := ⟨.hbm, 32, rfl⟩
abbrev main_v26 : Ref sig .tc := ⟨.hbm, 33, rfl⟩
abbrev main_c_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]

class Facts₀ : Prop where
  bcast_S_S62 : S_.BroadcastsInDim S62 (![] : Fin 0 → Fin S62.rank)
  bcast_S62_S62x1_0 : S62.BroadcastsInDim S62x1 (![0] : Fin 1 → Fin S62x1.rank)
  bcast_S3_S1x3_1 : S3.BroadcastsInDim S1x3 (![1] : Fin 1 → Fin S1x3.rank)
  bcast_S62x1_S62x3_0_1 : S62x1.BroadcastsInDim S62x3 (![0, 1] : Fin 2 → Fin S62x3.rank)
  bcast_S1x3_S62x3_0_1 : S1x3.BroadcastsInDim S62x3 (![0, 1] : Fin 2 → Fin S62x3.rank)
  bcast_S62x3_S62x3x1x1_0_1 : S62x3.BroadcastsInDim S62x3x1x1 (![0, 1] : Fin 2 → Fin S62x3x1x1.rank)
  bcast_S62x3_S1x1x62x3_2_3 : S62x3.BroadcastsInDim S1x1x62x3 (![2, 3] : Fin 2 → Fin S1x1x62x3.rank)
  bcast_S_S62x3x1x1 : S_.BroadcastsInDim S62x3x1x1 (![] : Fin 0 → Fin S62x3x1x1.rank)
  bcast_S_S1x1x62x3 : S_.BroadcastsInDim S1x1x62x3 (![] : Fin 0 → Fin S1x1x62x3.rank)
  bcast_S62x3x1x1_S62x3x62x3_0_1_2_3 : S62x3x1x1.BroadcastsInDim S62x3x62x3 (![0, 1, 2, 3] : Fin 4 → Fin S62x3x62x3.rank)
  bcast_S1x1x62x3_S62x3x62x3_0_1_2_3 : S1x1x62x3.BroadcastsInDim S62x3x62x3 (![0, 1, 2, 3] : Fin 4 → Fin S62x3x62x3.rank)
  bcast_S62x3x62x3_S62x3x62x3x1_0_1_2_3 : S62x3x62x3.BroadcastsInDim S62x3x62x3x1 (![0, 1, 2, 3] : Fin 4 → Fin S62x3x62x3x1.rank)
  concatenates_S62x3x62x3x1_S62x3x62x3x1_S62x3x62x3x2_d4 : Shape.Concatenates [S62x3x62x3x1, S62x3x62x3x1] S62x3x62x3x2 4
  transposes_S64x16x62x3x62x3_S62x62x64x16x3x3_2_4_0_1_3_5 : S64x16x62x3x62x3.Transposes [2, 4, 0, 1, 3, 5] S62x62x64x16x3x3
  shapeCasts_S62x62x64x16x3x3_S3844x64x144 : S62x62x64x16x3x3.ShapeCasts S3844x64x144
  shapeCasts_S3844x64x32_S62x62x64x32 : S3844x64x32.ShapeCasts S62x62x64x32
  transposes_S62x62x64x32_S64x32x62x62_2_3_0_1 : S62x62x64x32.Transposes [2, 3, 0, 1] S64x32x62x62
  gather_S64x16x64x64_S62x3x62x3x2_S64x16x62x3x62x3_01_23_n_n_23_4_641611_wf : GatherDims.WF S64x16x64x64 S62x3x62x3x2 S64x16x62x3x62x3 [0, 1] [2, 3] [] [2, 3] [] 4 ![64, 16, 1, 1]
  dot_S3844x64x144_S3844x144x32_S3844x64x32_2_1_1_2_0_0_wf : DotDims.WF S3844x64x144 S3844x144x32 S3844x64x32 [2] [1] [1] [2] [0] [0]

variable [Facts₀]

def gather_S64x16x64x64_S62x3x62x3x2_S64x16x62x3x62x3_01_23_n_n_23_4_641611 : GatherDims S64x16x64x64 S62x3x62x3x2 S64x16x62x3x62x3 where
  offsetDims := [0, 1]
  collapsedSliceDims := [2, 3]
  operandBatchingDims := []
  startIndicesBatchingDims := []
  startIndexMap := [2, 3]
  indexVectorDim := 4
  sliceSizes := ![64, 16, 1, 1]
  wf := gather_S64x16x64x64_S62x3x62x3x2_S64x16x62x3x62x3_01_23_n_n_23_4_641611_wf
def dot_S3844x64x144_S3844x144x32_S3844x64x32_2_1_1_2_0_0 : DotDims S3844x64x144 S3844x144x32 S3844x64x32 where
  lhsContracting := [2]
  rhsContracting := [1]
  lhsNonContracting := [1]
  rhsNonContracting := [2]
  lhsBatch := [0]
  rhsBatch := [0]
  wf := dot_S3844x64x144_S3844x144x32_S3844x64x32_2_1_1_2_0_0_wf

class Facts : Prop extends Facts₀ where

variable [Facts]
-- ==== Proof.Spec.lean ====
/-
  THE SPECIFICATION: a 3×3 convolution whose weights are NOT shared between output positions.

  The input is X : [64, 16, 64, 64] (sample, channel, row, column) and the weights are K : [3844, 144, 32]
  (output position, feature, output channel), an output position being the pair (oh, ow) of an output row and an
  output column, numbered oh·62 + ow, and a feature the triple (c, kh, kw) of an input channel and a tap of the 3×3
  window, numbered c·9 + kh·3 + kw. The result at (b, o, oh, ow) is

      Σ_f  X(b, c(f), oh + kh(f), ow + kw(f)) · K(oh·62 + ow, f, o).

  Both programs compute this sum of 144 products of extended reals. They differ in the ORDER of the features (the
  other program numbers the features tap-major, (kh·3 + kw)·16 + c) and in the order of the two factors. A sum over a
  finite type does not depend on the numbering of its terms, and the product of extended reals is commutative, so the
  two are equal for all extended reals: no finiteness is needed.
-/
import Idealize.ShloMosaic.PureOps.Ideal
import Idealize.ShloMosaic.Lib.ValueIdx

noncomputable section

open scoped BigOperators

namespace Cert.Spec

open Idealize.ShloMosaic Idealize.ShloMosaic.ValueIdx

/-! ## Coordinates -/

/-- Input row (or column) of an output row (or column) and a tap offset: oh + kh. -/
def shift (oh : Fin 62) (kh : Fin 3) : Fin 64 := ⟨oh.val + kh.val, by omega⟩

/-- The number of the output position (oh, ow): oh·62 + ow. -/
def pos (oh ow : Fin 62) : Fin 3844 := ⟨oh.val * 62 + ow.val, by omega⟩

/-- Channel-major features, f = c·9 + kh·3 + kw: the channel, -/
def chan (f : Fin 144) : Fin 16 := ⟨f.val / 9, by omega⟩
/-- the tap's row, -/
def tapRow (f : Fin 144) : Fin 3 := ⟨f.val % 9 / 3, by omega⟩
/-- and the tap's column. -/
def tapCol (f : Fin 144) : Fin 3 := ⟨f.val % 3, by omega⟩

/-- Tap-major features, g = (kh·3 + kw)·16 + c: the channel, -/
def chanT (g : Fin 144) : Fin 16 := ⟨g.val % 16, by omega⟩
/-- the tap's row, -/
def tapRowT (g : Fin 144) : Fin 3 := ⟨g.val / 16 / 3, by omega⟩
/-- and the tap's column. -/
def tapColT (g : Fin 144) : Fin 3 := ⟨g.val / 16 % 3, by omega⟩

/-- The channel-major number of the tap-major feature g: c·9 + (kh·3 + kw). -/
def featOf (g : Fin 144) : Fin 144 := ⟨g.val % 16 * 9 + g.val / 16, by omega⟩

/-- Renumbering the features is a bijection: its inverse sends f = c·9 + tap to tap·16 + c. -/
def featEquiv : Fin 144 ≃ Fin 144 where
  toFun := featOf
  invFun f := ⟨f.val % 9 * 16 + f.val / 9, by omega⟩
  left_inv g := by apply Fin.ext; simp only [featOf]; omega
  right_inv f := by apply Fin.ext; simp only [featOf]; omega

theorem chan_featOf (g : Fin 144) : chan (featOf g) = chanT g := by
  apply Fin.ext; simp only [chan, chanT, featOf]; omega
theorem tapRow_featOf (g : Fin 144) : tapRow (featOf g) = tapRowT g := by
  apply Fin.ext; simp only [tapRow, tapRowT, featOf]; omega
theorem tapCol_featOf (g : Fin 144) : tapCol (featOf g) = tapColT g := by
  apply Fin.ext; simp only [tapCol, tapColT, featOf]; omega

/-! ## The function -/

/-- The convolution at (b, o, oh, ow), features channel-major, input factor first. -/
def convAt (X : (⟨4, ![64, 16, 64, 64]⟩ : Shape).Idx → EReal) (K : (⟨3, ![3844, 144, 32]⟩ : Shape).Idx → EReal)
    (b : Fin 64) (o : Fin 32) (oh ow : Fin 62) : EReal :=
  ∑ f : Fin 144, X (ix4 b (chan f) (shift oh (tapRow f)) (shift ow (tapCol f))) * K (ix3 (pos oh ow) f o)

/-- The whole result array. -/
def conv (X : (⟨4, ![64, 16, 64, 64]⟩ : Shape).Idx → EReal) (K : (⟨3, ![3844, 144, 32]⟩ : Shape).Idx → EReal) :
    (⟨4, ![64, 32, 62, 62]⟩ : Shape).Idx → EReal :=
  fun i => convAt X K (i 0) (i 1) (i 2) (i 3)

theorem conv_ix4 (X : (⟨4, ![64, 16, 64, 64]⟩ : Shape).Idx → EReal) (K : (⟨3, ![3844, 144, 32]⟩ : Shape).Idx → EReal)
    (b : Fin 64) (o : Fin 32) (oh ow : Fin 62) : conv X K (ix4 b o oh ow) = convAt X K b o oh ow := rfl

/-- THE LAW: the same sum with the features numbered tap-major and the weight factor first. -/
theorem convAt_tapMajor (X : (⟨4, ![64, 16, 64, 64]⟩ : Shape).Idx → EReal) (K : (⟨3, ![3844, 144, 32]⟩ : Shape).Idx → EReal)
    (b : Fin 64) (o : Fin 32) (oh ow : Fin 62) :
    ∑ g : Fin 144, K (ix3 (pos oh ow) (featOf g) o) * X (ix4 b (chanT g) (shift oh (tapRowT g)) (shift ow (tapColT g)))
      = convAt X K b o oh ow := by
  unfold convAt
  refine Eq.trans ?_ (Equiv.sum_comp featEquiv _)
  refine Finset.sum_congr rfl fun g _ => ?_
  show _ = X (ix4 b (chan (featOf g)) (shift oh (tapRow (featOf g))) (shift ow (tapCol (featOf g)))) * K (ix3 (pos oh ow) (featOf g) o)
  rw [chan_featOf, tapRow_featOf, tapCol_featOf]
  exact mul_comm _ _

end Cert.Spec

end
-- ==== Proof.RefValue.lean ====
/-
  THE REFERENCE IS THE CONVOLUTION.

  The reference extracts the 3×3 patches of the input by ONE gather and multiplies them with the weights by one
  batched product. Read at one index of the result, every operation of it is its operand at one index:

  * the two planes of start indices are built from iotas: at (oh, kh, ow, kw) the first holds the word oh + kh and the
    second the word ow + kw. Both numbers are at most 63, so neither word is negative (the "add 64 where negative"
    choice in front of the gather keeps the word) and the gather's clamp into [0, 63] keeps the number;
  * the two planes are joined on a new last axis: entry 0 of it is the first plane's, entry 1 the second's;
  * the gather keeps the operand's first two axes whole (offset axes), collapses the last two, which the start index
    addresses: its entry (b, c, oh, kh, ow, kw) is the input at (b, c, oh + kh, ow + kw);
  * a transpose brings this to (oh, ow, b, c, kh, kw) and a reshape, which keeps row-major positions, to
    (oh·62 + ow, b, c·9 + kh·3 + kw);
  * the batched product sums, over the feature f, that entry times the weight at (oh·62 + ow, f, o);
  * a reshape and a transpose send the result's (oh·62 + ow, b, o) to (b, o, oh, ow).

  So the result at (b, o, oh, ow) is the sum over f of the input at (b, f / 9, oh + f % 9 / 3, ow + f % 3) times the
  weight at (oh·62 + ow, f, o): the convolution's own sum, term by term.
-/
import proofs.«138315_j87076166959108_1_alg».proof.Proof.Gen.ReferenceIdeal.Read
import proofs.«138315_j87076166959108_1_alg».proof.Proof.Spec
import Idealize.ShloMosaic.Lib.StableHlo.Predicate
import Idealize.ShloMosaic.Lib.ValueIdxRank6

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.StableHlo Idealize.ShloMosaic.ValueIdx

/-! ## Words -/

/-- A small number's word is not negative, so the choice "the word plus 64 where it is negative" keeps it. -/
private theorem select_neg_ofNat (n : Nat) (hn : n < 2 ^ 31) (a : BitVec 32) :
    Scalar.select (IntOp.cmpi .slt (BitVec.ofNat 32 n) 0#32) a (BitVec.ofNat 32 n) = BitVec.ofNat 32 n := by
  have hlt : (BitVec.ofNat 32 n).toNat < 2 ^ 31 := by rw [BitVec.toNat_ofNat]; omega
  have h0 : (0#32 : BitVec 32).toNat < 2 ^ 31 := by decide
  have hc : ¬ IntOp.cmpi .slt (BitVec.ofNat 32 n) 0#32 = 1#1 := fun h =>
    Nat.not_lt_zero _ ((Predicate.slt_iff_toNat hlt h0).1 h)
  unfold Scalar.select
  exact if_neg hc

/-- A number at most 63, as a word read signed and clamped into [0, 63], is the number. -/
private theorem clamp_ofNat (n : Nat) (hn : n ≤ 63) : min (BitVec.ofNat 32 n).toInt.toNat 63 = n := by
  rw [Predicate.toInt_ofNat_small n (by omega), Int.toNat_natCast]
  exact Nat.min_eq_left hn

/-! ## The two planes of start indices -/

section Planes
variable {F : FTy → Type} [FloatOps F]

/-- Row index plus row tap, before the negative-index choice. -/
private theorem v18_val (i : S62x3x1x1.Idx) : Read.val_main_v18 (F := F) i = BitVec.ofNat 32 ((i 0).val + (i 1).val) := by
  rw [Read.val_main_v18_apply, Read.val_main_v8_apply, Read.val_main_v6_apply, Read.val_main_v7_apply,
    Read.val_main_v3_apply, Read.val_main_v5_apply, Read.val_main_v2_apply, Read.val_main_v4_apply,
    Read.val_main_v0_apply, Read.val_main_v1_apply, Read.val_main_c_apply]
  show IntOp.addi (IntOp.muli (BitVec.ofNat 32 (i 0).val) 1#32) (BitVec.ofNat 32 (i 1).val) = _
  unfold IntOp.addi IntOp.muli
  rw [BitVec.mul_one, BitVec.ofNat_add]

/-- Column index plus column tap, before the negative-index choice. -/
private theorem v19_val (i : S1x1x62x3.Idx) : Read.val_main_v19 (F := F) i = BitVec.ofNat 32 ((i 2).val + (i 3).val) := by
  rw [Read.val_main_v19_apply, Read.val_main_v17_apply, Read.val_main_v15_apply, Read.val_main_v16_apply,
    Read.val_main_v12_apply, Read.val_main_v14_apply, Read.val_main_v11_apply, Read.val_main_v13_apply,
    Read.val_main_v9_apply, Read.val_main_v10_apply, Read.val_main_c_0_apply]
  show IntOp.addi (IntOp.muli (BitVec.ofNat 32 (i 2).val) 1#32) (BitVec.ofNat 32 (i 3).val) = _
  unfold IntOp.addi IntOp.muli
  rw [BitVec.mul_one, BitVec.ofNat_add]

/-- The first plane at (oh, kh, ·, ·, 0) holds oh + kh. -/
private theorem v32_val (i : S62x3x62x3x1.Idx) : Read.val_main_v32 (F := F) i = BitVec.ofNat 32 ((i 0).val + (i 1).val) := by
  have h0 : (i 0).val < 62 := (i 0).isLt
  have h1 : (i 1).val < 3 := (i 1).isLt
  rw [Read.val_main_v32_apply, Read.val_main_v30_apply, Read.val_main_v24_apply, Read.val_main_v21_apply,
    Read.val_main_v20_apply, Read.val_main_c_1_apply, v18_val]
  show Scalar.select (IntOp.cmpi .slt (BitVec.ofNat 32 ((i 0).val + (i 1).val)) 0#32) _ (BitVec.ofNat 32 ((i 0).val + (i 1).val)) = _
  exact select_neg_ofNat _ (by omega) _

/-- The second plane at (·, ·, ow, kw, 0) holds ow + kw. -/
private theorem v33_val (i : S62x3x62x3x1.Idx) : Read.val_main_v33 (F := F) i = BitVec.ofNat 32 ((i 2).val + (i 3).val) := by
  have h2 : (i 2).val < 62 := (i 2).isLt
  have h3 : (i 3).val < 3 := (i 3).isLt
  rw [Read.val_main_v33_apply, Read.val_main_v31_apply, Read.val_main_v29_apply, Read.val_main_v26_apply,
    Read.val_main_v25_apply, Read.val_main_c_3_apply, v19_val]
  show Scalar.select (IntOp.cmpi .slt (BitVec.ofNat 32 ((i 2).val + (i 3).val)) 0#32) _ (BitVec.ofNat 32 ((i 2).val + (i 3).val)) = _
  exact select_neg_ofNat _ (by omega) _

/-- The joined start indices: entry 0 on the last axis is the first plane's. -/
private theorem v34_zero (oh : Fin 62) (kh : Fin 3) (ow : Fin 62) (kw : Fin 3) :
    Read.val_main_v34 (F := F) (ix5 oh kh ow kw (0 : Fin 2)) = BitVec.ofNat 32 (oh.val + kh.val) := by
  unfold Read.val_main_v34
  refine (concatenate_pair_apply_left (t := S62x3x62x3x2) (s₁ := S62x3x62x3x1) (s₂ := S62x3x62x3x1) (4 : Fin 5)
    (Read.val_main_v32 (F := F)) (Read.val_main_v33 (F := F)) concatenates_S62x3x62x3x1_S62x3x62x3x1_S62x3x62x3x2_d4
    (ix5 oh kh ow kw (0 : Fin 2)) rfl (ix5 oh kh ow kw (0 : Fin 1)) (fun b => match b with
      | ⟨0, _⟩ => rfl | ⟨1, _⟩ => rfl | ⟨2, _⟩ => rfl | ⟨3, _⟩ => rfl | ⟨4, _⟩ => rfl)).trans ?_
  exact v32_val _

/-- The joined start indices: entry 1 on the last axis is the second plane's. -/
private theorem v34_one (oh : Fin 62) (kh : Fin 3) (ow : Fin 62) (kw : Fin 3) :
    Read.val_main_v34 (F := F) (ix5 oh kh ow kw (1 : Fin 2)) = BitVec.ofNat 32 (ow.val + kw.val) := by
  unfold Read.val_main_v34
  refine (concatenate_pair_apply_right (t := S62x3x62x3x2) (s₁ := S62x3x62x3x1) (s₂ := S62x3x62x3x1) (4 : Fin 5)
    (Read.val_main_v32 (F := F)) (Read.val_main_v33 (F := F)) concatenates_S62x3x62x3x1_S62x3x62x3x1_S62x3x62x3x2_d4
    (ix5 oh kh ow kw (1 : Fin 2)) rfl rfl (ix5 oh kh ow kw (0 : Fin 1)) (fun b hb => match b, hb with
      | ⟨0, _⟩, _ => rfl | ⟨1, _⟩, _ => rfl | ⟨2, _⟩, _ => rfl | ⟨3, _⟩, _ => rfl | ⟨4, _⟩, hb => absurd rfl hb) rfl).trans ?_
  exact v33_val _

end Planes

/-! ## The gather at an index -/

local notation "gd" => gather_S64x16x64x64_S62x3x62x3x2_S64x16x62x3x62x3_01_23_n_n_23_4_641611

/-- The patch gather read at (b, c, oh, kh, ow, kw), for any array of start indices: the operand's first two axes are
    offset axes, read at the result's (b, c); its last two are collapsed and addressed by the two components of the
    start index at (oh, kh, ow, kw), each read signed and clamped into [0, 63]. -/
private theorem gather_apply {α : Type} {w : Nat} (x : S64x16x64x64.Idx → α) (idx : IVec S62x3x62x3x2 w)
    (b : Fin 64) (c : Fin 16) (oh : Fin 62) (kh : Fin 3) (ow : Fin 62) (kw : Fin 3) :
    Host.gather gd x idx (ix6 b c oh kh ow kw)
      = x (ix4 b c ⟨min (idx (ix5 oh kh ow kw (0 : Fin 2))).toInt.toNat 63, by omega⟩
          ⟨min (idx (ix5 oh kh ow kw (1 : Fin 2))).toInt.toNat 63, by omega⟩) := by
  unfold Host.gather
  refine congrArg x ?_
  funext a
  refine Fin.ext ?_
  show GatherDims.start gd (ix6 b c oh kh ow kw) idx a + GatherDims.batchCoord gd (ix6 b c oh kh ow kw) a
      + GatherDims.offCoord gd (ix6 b c oh kh ow kw) a = _
  rw [GatherDims.batchCoord_eq_zero _ _ _ List.not_mem_nil, Nat.add_zero]
  match a with
  | ⟨0, _⟩ =>
    -- an offset axis the start index does not address: start 0, the result's coordinate b
    show GatherDims.start gd (ix6 b c oh kh ow kw) idx (0 : Fin 4) + GatherDims.offCoord gd (ix6 b c oh kh ow kw) (0 : Fin 4) = b.val
    have hs : GatherDims.start gd (ix6 b c oh kh ow kw) idx (0 : Fin 4) = 0 := by
      unfold GatherDims.start
      rw [dif_neg (show (0 : Fin 4) ∉ (GatherDims.startIndexMap gd) by decide)]
    rw [hs, Nat.zero_add]
    rfl
  | ⟨1, _⟩ =>
    -- the other offset axis: start 0, the result's coordinate c
    show GatherDims.start gd (ix6 b c oh kh ow kw) idx (1 : Fin 4) + GatherDims.offCoord gd (ix6 b c oh kh ow kw) (1 : Fin 4) = c.val
    have hs : GatherDims.start gd (ix6 b c oh kh ow kw) idx (1 : Fin 4) = 0 := by
      unfold GatherDims.start
      rw [dif_neg (show (1 : Fin 4) ∉ (GatherDims.startIndexMap gd) by decide)]
    rw [hs, Nat.zero_add]
    rfl
  | ⟨2, _⟩ =>
    -- a collapsed axis, addressed by component 0 of the start index: no offset, the component clamped into [0, 64 − 1]
    show GatherDims.start gd (ix6 b c oh kh ow kw) idx (2 : Fin 4) + GatherDims.offCoord gd (ix6 b c oh kh ow kw) (2 : Fin 4)
      = min (idx (ix5 oh kh ow kw (0 : Fin 2))).toInt.toNat 63
    rw [GatherDims.offCoord_eq_zero _ _ _ (fun h => ((GatherDims.mem_sKept _ _).mp h).1 (by decide)), Nat.add_zero]
    unfold GatherDims.start
    rw [dif_pos (show (2 : Fin 4) ∈ (GatherDims.startIndexMap gd) by decide)]
    have hsi : GatherDims.siIdx gd (ix6 b c oh kh ow kw) ⟨List.idxOf (2 : Fin 4) (GatherDims.startIndexMap gd),
        List.idxOf_lt_length_iff.2 (by decide)⟩ = ix5 oh kh ow kw (0 : Fin 2) := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl
  | ⟨3, _⟩ =>
    -- the other collapsed axis, addressed by component 1
    show GatherDims.start gd (ix6 b c oh kh ow kw) idx (3 : Fin 4) + GatherDims.offCoord gd (ix6 b c oh kh ow kw) (3 : Fin 4)
      = min (idx (ix5 oh kh ow kw (1 : Fin 2))).toInt.toNat 63
    rw [GatherDims.offCoord_eq_zero _ _ _ (fun h => ((GatherDims.mem_sKept _ _).mp h).1 (by decide)), Nat.add_zero]
    unfold GatherDims.start
    rw [dif_pos (show (3 : Fin 4) ∈ (GatherDims.startIndexMap gd) by decide)]
    have hsi : GatherDims.siIdx gd (ix6 b c oh kh ow kw) ⟨List.idxOf (3 : Fin 4) (GatherDims.startIndexMap gd),
        List.idxOf_lt_length_iff.2 (by decide)⟩ = ix5 oh kh ow kw (1 : Fin 2) := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl

/-- The gathered patches: entry (b, c, oh, kh, ow, kw) is the input at (b, c, oh + kh, ow + kw). -/
private theorem v35_at {F : FTy → Type} [FloatOps F] (x0 : (⟨S64x16x64x64, .f32⟩ : BufTy).Contents (Elt F))
    (b : Fin 64) (c : Fin 16) (oh : Fin 62) (kh : Fin 3) (ow : Fin 62) (kw : Fin 3) :
    Read.val_main_v35 (F := F) x0 (ix6 b c oh kh ow kw) = x0 (ix4 b c (Cert.Spec.shift oh kh) (Cert.Spec.shift ow kw)) := by
  unfold Read.val_main_v35
  refine (gather_apply x0 (Read.val_main_v34 (F := F)) b c oh kh ow kw).trans ?_
  have hh : oh.val + kh.val ≤ 63 := by have := oh.isLt; have := kh.isLt; omega
  have hw : ow.val + kw.val ≤ 63 := by have := ow.isLt; have := kw.isLt; omega
  refine congrArg x0 (funext fun a => ?_)
  match a with
  | ⟨0, _⟩ => rfl
  | ⟨1, _⟩ => rfl
  | ⟨2, _⟩ =>
    refine Fin.ext ?_
    show min (Read.val_main_v34 (F := F) (ix5 oh kh ow kw (0 : Fin 2))).toInt.toNat 63 = oh.val + kh.val
    rw [v34_zero]
    exact clamp_ofNat _ hh
  | ⟨3, _⟩ =>
    refine Fin.ext ?_
    show min (Read.val_main_v34 (F := F) (ix5 oh kh ow kw (1 : Fin 2))).toInt.toNat 63 = ow.val + kw.val
    rw [v34_one]
    exact clamp_ofNat _ hw

/-! ## The reshape to (position, sample, feature), and the result -/

/-- The transpose's source index, by coordinates. -/
private theorem idx_v36_ix6 (oh ow : Fin 62) (b : Fin 64) (c : Fin 16) (kh kw : Fin 3) :
    Read.idx_main_v36 (ix6 oh ow b c kh kw) = ix6 b c oh kh ow kw := by
  funext a
  match a with
  | ⟨0, _⟩ => rfl
  | ⟨1, _⟩ => rfl
  | ⟨2, _⟩ => rfl
  | ⟨3, _⟩ => rfl
  | ⟨4, _⟩ => rfl
  | ⟨5, _⟩ => rfl

/-- The patches as rows of features: entry (oh·62 + ow, b, f) is the input at (b, f / 9, oh + f % 9 / 3, ow + f % 3).
    The reshape keeps row-major positions: (((((oh·62 + ow)·64 + b)·16 + c)·3 + kh)·3 + kw
    = ((oh·62 + ow)·64 + b)·144 + (c·9 + kh·3 + kw). -/
private theorem v37_at {F : FTy → Type} [FloatOps F] (x0 : (⟨S64x16x64x64, .f32⟩ : BufTy).Contents (Elt F))
    (j : S3844x64x144.Idx) (oh ow : Fin 62) (b : Fin 64) (f : Fin 144)
    (h0 : (j 0).val = oh.val * 62 + ow.val) (h1 : (j 1).val = b.val) (h2 : (j 2).val = f.val) :
    Read.val_main_v37 (F := F) x0 j
      = x0 (ix4 b (Cert.Spec.chan f) (Cert.Spec.shift oh (Cert.Spec.tapRow f)) (Cert.Spec.shift ow (Cert.Spec.tapCol f))) := by
  have hf : f.val < 144 := f.isLt
  have e : Read.val_main_v37 (F := F) x0 j
      = Read.val_main_v36 (F := F) x0 (ix6 oh ow b (Cert.Spec.chan f) (Cert.Spec.tapRow f) (Cert.Spec.tapCol f)) := by
    unfold Read.val_main_v37
    generalize Read.val_main_v36 (F := F) x0 = y
    refine shapeCast_apply y shapeCasts_S62x62x64x16x3x3_S3844x64x144 j _ ?_
    rw [Shape.rowMajor_val_six, Shape.rowMajor_val_three]
    show ((((oh.val * 62 + ow.val) * 64 + b.val) * 16 + f.val / 9) * 3 + f.val % 9 / 3) * 3 + f.val % 3
      = ((j 0).val * 64 + (j 1).val) * 144 + (j 2).val
    rw [h0, h1, h2]
    omega
  rw [e, Read.val_main_v36_apply, idx_v36_ix6]
  exact v35_at x0 b _ oh _ ow _

/-- The reference's result, as a function of its two arguments, is the convolution. -/
theorem ref_eq (x0 : (⟨S64x16x64x64, .f32⟩ : BufTy).Contents (Elt Ideal)) (x1 : (⟨S3844x144x32, .f32⟩ : BufTy).Contents (Elt Ideal)) :
    Read.val_main_v40 (F := Ideal) x0 x1 = Cert.Spec.conv x0 x1 := by
  funext j
  obtain ⟨b, o, oh, ow, rfl⟩ : ∃ (b : Fin 64) (o : Fin 32) (oh ow : Fin 62), j = ix4 b o oh ow :=
    ⟨j 0, j 1, j 2, j 3, eq_ix4 j⟩
  have hb : b.val < 64 := b.isLt
  have ho : o.val < 32 := o.isLt
  have hoh : oh.val < 62 := oh.isLt
  have how : ow.val < 62 := ow.isLt
  rw [Cert.Spec.conv_ix4, Read.val_main_v40_apply, Read.val_main_v39_apply, Read.val_main_v38_apply]
  unfold Cert.Spec.convAt
  refine Finset.sum_congr rfl fun f _ => ?_
  -- the product's output index is (oh·62 + ow, b, o): the reshape's row-major position split back
  have e0 : ((((oh.val * 62 + ow.val) * 64 + b.val) * 32 + o.val) / 2048) = oh.val * 62 + ow.val := by omega
  have e1 : ((((oh.val * 62 + ow.val) * 64 + b.val) * 32 + o.val) / 32 % 64) = b.val := by omega
  have e2 : ((((oh.val * 62 + ow.val) * 64 + b.val) * 32 + o.val) % 32) = o.val := by omega
  refine congrArg₂ (· * ·) ?_ ?_
  · exact v37_at x0 _ oh ow b f e0 e1 rfl
  · refine congrArg x1 (funext fun a => ?_)
    match a with
    | ⟨0, _⟩ => exact Fin.ext e0
    | ⟨1, _⟩ => rfl
    | ⟨2, _⟩ => exact Fin.ext e2

end Cert.ReferenceIdeal.RefValue

end
-- ==== Proof.HostPre.lean ====
/-
  THE ARRAYS THE REGION FINDS: the input re-laid as [row, column, sample·16 + channel] and the weights re-laid as
  [position, output channel, tap-major feature].
-/
import proofs.«138315_j87076166959108_1_alg».proof.Proof.Gen.KernelIdeal.Frame
import proofs.«138315_j87076166959108_1_alg».proof.Proof.Spec
import Idealize.ShloMosaic.Lib.StableHlo.Run
import Idealize.ShloMosaic.Lib.Pipeline.Value
import Idealize.ShloMosaic.Lib.ValueIdx
import Idealize.ShloMosaic.Lib.ValueIdxRank6

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The first argument as launched, on core `c`. -/
abbrev argX (c : Dev nD) : S64x16x64x64.Idx → EReal := m ((c : Thread nD τ).loc main_arg0)
/-- The second argument as launched, on core `c`. -/
abbrev argK (c : Dev nD) : S3844x144x32.Idx → EReal := m ((c : Thread nD τ).loc main_arg1)

/-! ## The two arrays as the operations' terms of the arguments -/

/-- The region's first array: the argument transposed to [row, column, sample, channel], its last two axes merged, and
    narrowed (the identity on extended reals). -/
theorem V_v2_eq (c : Dev nD) :
    (V m c main_v2 : S64x64x1024.Idx → EReal)
      = (truncf (F := Ideal) .bf16 (shapeCast S64x64x1024 (transpose S64x64x64x16 [2, 3, 0, 1] (argX m c) transposes_S64x16x64x64_S64x64x64x16_2_3_0_1) shapeCasts_S64x64x64x16_S64x64x1024) bitsLt_bf16_f32 : S64x64x1024.Idx → EReal) := by
  show StableHlo.after hostOps0 (fun b => m (c, b)) (Proc.devRef .tc main_v2) = _
  after_results
  rfl

/-- The region's second array: the argument's position axis split into (oh, ow) and its feature axis into
    (channel, tap row, tap column); the channel moved behind the tap; the three merged again, now tap-major; the feature
    and output-channel axes exchanged; the two position axes merged; and narrowed. -/
theorem V_v8_eq (c : Dev nD) :
    (V m c main_v8 : S3844x32x144.Idx → EReal)
      = (truncf (F := Ideal) .bf16
          (shapeCast S3844x32x144
            (transpose S62x62x32x144 [0, 1, 3, 2]
              (shapeCast S62x62x144x32
                (transpose S62x62x3x3x16x32 [0, 1, 3, 4, 2, 5]
                  (shapeCast S62x62x16x3x3x32 (argK m c) shapeCasts_S3844x144x32_S62x62x16x3x3x32)
                  transposes_S62x62x16x3x3x32_S62x62x3x3x16x32_0_1_3_4_2_5)
                shapeCasts_S62x62x3x3x16x32_S62x62x144x32)
              transposes_S62x62x144x32_S62x62x32x144_0_1_3_2)
            shapeCasts_S62x62x32x144_S3844x32x144)
          bitsLt_bf16_f32 : S3844x32x144.Idx → EReal) := by
  show StableHlo.after hostOps0 (fun b => m (c, b)) (Proc.devRef .tc main_v8) = _
  after_results
  rfl

/-! ## Read at an index -/

/-- The region's first array at (row h, column w, lane q): the input at sample q / 16, channel q % 16. -/
theorem xin_apply (c : Dev nD) (h w : Fin 64) (q : Fin 1024) :
    (V m c main_v2 : S64x64x1024.Idx → EReal) (ix3 h w q)
      = argX m c (ix4 (⟨q.val / 16, by omega⟩ : Fin 64) (⟨q.val % 16, by omega⟩ : Fin 16) h w) := by
  rw [V_v2_eq]
  generalize argX m c = x
  refine (truncf_apply (ψ := .bf16) _ bitsLt_bf16_f32 _).trans ?_
  -- the merged lane q = sample·16 + channel splits back into its two coordinates
  refine (shapeCast_apply _ shapeCasts_S64x64x64x16_S64x64x1024 (ix3 h w q)
    (ix4 h w (⟨q.val / 16, by omega⟩ : Fin 64) (⟨q.val % 16, by omega⟩ : Fin 16)) ?_).trans ?_
  · rewrite [Shape.rowMajor_val_four, Shape.rowMajor_val_three]
    show ((h.val * 64 + w.val) * 64 + q.val / 16) * 16 + q.val % 16 = (h.val * 64 + w.val) * 1024 + q.val
    omega
  -- result axes (row, column, sample, channel) are source axes 2, 3, 0, 1
  · exact transpose_apply [2, 3, 0, 1] x transposes_S64x16x64x64_S64x64x64x16_2_3_0_1 _ _ (fun b => match b with
      | ⟨0, _⟩ => rfl
      | ⟨1, _⟩ => rfl
      | ⟨2, _⟩ => rfl
      | ⟨3, _⟩ => rfl)

/-- The region's second array at (position p, output channel o, tap-major feature g): the weights at the channel-major
    number of g. -/
theorem wgt_apply (c : Dev nD) (p : Fin 3844) (o : Fin 32) (g : Fin 144) :
    (V m c main_v8 : S3844x32x144.Idx → EReal) (ix3 p o g) = argK m c (ix3 p (Cert.Spec.featOf g) o) := by
  rw [V_v8_eq]
  generalize argK m c = k
  refine (truncf_apply (ψ := .bf16) _ bitsLt_bf16_f32 _).trans ?_
  -- the position p = oh·62 + ow splits into (oh, ow)
  refine (shapeCast_apply _ shapeCasts_S62x62x32x144_S3844x32x144 (ix3 p o g)
    (ix4 (⟨p.val / 62, by omega⟩ : Fin 62) (⟨p.val % 62, by omega⟩ : Fin 62) o g) ?_).trans ?_
  · rewrite [Shape.rowMajor_val_four, Shape.rowMajor_val_three]
    show ((p.val / 62 * 62 + p.val % 62) * 32 + o.val) * 144 + g.val = (p.val * 32 + o.val) * 144 + g.val
    omega
  -- output channel and feature exchanged
  refine (transpose_apply [0, 1, 3, 2] _ transposes_S62x62x144x32_S62x62x32x144_0_1_3_2 _
    (ix4 (⟨p.val / 62, by omega⟩ : Fin 62) (⟨p.val % 62, by omega⟩ : Fin 62) g o) (fun b => match b with
      | ⟨0, _⟩ => rfl
      | ⟨1, _⟩ => rfl
      | ⟨2, _⟩ => rfl
      | ⟨3, _⟩ => rfl)).trans ?_
  -- the tap-major feature g = (kh·3 + kw)·16 + c splits into (kh, kw, c)
  refine (shapeCast_apply _ shapeCasts_S62x62x3x3x16x32_S62x62x144x32 _
    (ix6 (⟨p.val / 62, by omega⟩ : Fin 62) (⟨p.val % 62, by omega⟩ : Fin 62) (⟨g.val / 48, by omega⟩ : Fin 3)
      (⟨g.val / 16 % 3, by omega⟩ : Fin 3) (⟨g.val % 16, by omega⟩ : Fin 16) o) ?_).trans ?_
  · rewrite [Shape.rowMajor_val_six, Shape.rowMajor_val_four]
    show ((((p.val / 62 * 62 + p.val % 62) * 3 + g.val / 48) * 3 + g.val / 16 % 3) * 16 + g.val % 16) * 32 + o.val
      = ((p.val / 62 * 62 + p.val % 62) * 144 + g.val) * 32 + o.val
    omega
  -- the channel moves back in front of the tap
  refine (transpose_apply [0, 1, 3, 4, 2, 5] _ transposes_S62x62x16x3x3x32_S62x62x3x3x16x32_0_1_3_4_2_5 _
    (ix6 (⟨p.val / 62, by omega⟩ : Fin 62) (⟨p.val % 62, by omega⟩ : Fin 62) (⟨g.val % 16, by omega⟩ : Fin 16)
      (⟨g.val / 48, by omega⟩ : Fin 3) (⟨g.val / 16 % 3, by omega⟩ : Fin 3) o) (fun b => match b with
      | ⟨0, _⟩ => rfl
      | ⟨1, _⟩ => rfl
      | ⟨2, _⟩ => rfl
      | ⟨3, _⟩ => rfl
      | ⟨4, _⟩ => rfl
      | ⟨5, _⟩ => rfl)).trans ?_
  -- (oh, ow) merge to p and (c, kh, kw) to c·9 + kh·3 + kw, the channel-major number of g
  refine shapeCast_apply k shapeCasts_S3844x144x32_S62x62x16x3x3x32 _ (ix3 p (Cert.Spec.featOf g) o) ?_
  rewrite [Shape.rowMajor_val_three, Shape.rowMajor_val_six]
  show (p.val * 144 + (g.val % 16 * 9 + g.val / 16)) * 32 + o.val
    = ((((p.val / 62 * 62 + p.val % 62) * 16 + g.val % 16) * 3 + g.val / 48) * 3 + g.val / 16 % 3) * 32 + o.val
  omega

end Cert.KernelIdeal.HostPre

end
-- ==== Proof.LibRowsByRows.lean ====
/-
  A BATCHED PRODUCT OF ROWS BY ROWS, read at an index.

  For two stacks A : [B, N, K] and C : [B, M, K] the product that keeps the leading axis as a batch axis and
  contracts the LAST axis of both — `einsum "bnk,bmk->bnm"`, sample by sample the matrix A_b · C_bᵀ — has at
  (b, n, m) the value Σ_k A(b, n, k) · C(b, m, k). This is stated once for the dimension numbers
  contracting [2] × [2], free [1] × [1], batch [0] × [0], and then for the two operations that carry them at the ideal
  values: the vector unit's matrix product into a zero accumulator, and the host's general dot product. Both are the same
  plain sum of extended reals (no rounding, no order), so a kernel's product of a block and a reference's product of
  the whole array agree entry by entry.
-/
import Idealize.ShloMosaic.PureOps.Ideal
import Idealize.ShloMosaic.PureOps.Ideal.Laws
import Idealize.ShloMosaic.Lib.ValueIdx

noncomputable section

open scoped BigOperators

namespace Cert.Lib.RowsByRows

open Idealize.ShloMosaic Idealize.ShloMosaic.ValueIdx

variable {B N M K : Nat}

/-- The dimension numbers of the batched rows-by-rows product over [B, N, K] and [B, M, K]; `w` is their
    well-formedness, which a program states of its literal shapes. -/
abbrev dims (w : DotDims.WF ⟨3, ![B, N, K]⟩ ⟨3, ![B, M, K]⟩ ⟨3, ![B, N, M]⟩ [2] [2] [1] [1] [0] [0]) :
    DotDims ⟨3, ![B, N, K]⟩ ⟨3, ![B, M, K]⟩ ⟨3, ![B, N, M]⟩ := ⟨[2], [2], [1], [1], [0], [0], w⟩

variable (w : DotDims.WF ⟨3, ![B, N, K]⟩ ⟨3, ![B, M, K]⟩ ⟨3, ![B, N, M]⟩ [2] [2] [1] [1] [0] [0])

/-- At output entry (b, n, m) and contracted coordinate c the left operand is read at (b, n, c). -/
theorem lhsIdx_eq (b : Fin B) (n : Fin N) (m : Fin M) (c : Fin K) :
    (dims w).lhsIdx (ix3 b n m) ((contrEquiv1 (dims w) K rfl rfl).symm c) = ix3 b n c := by
  have c3 := contrEquiv1_symm_val (dims w) K rfl rfl c
  funext ax; apply Fin.ext
  match ax with
  | ⟨0, _⟩ => simp [DotDims.lhsIdx]; rfl
  | ⟨1, _⟩ => simp [DotDims.lhsIdx]; rfl
  | ⟨2, _⟩ => simp [DotDims.lhsIdx]; exact c3

/-- And the right operand at (b, m, c). -/
theorem rhsIdx_eq (b : Fin B) (n : Fin N) (m : Fin M) (c : Fin K) :
    (dims w).rhsIdx (ix3 b n m) ((contrEquiv1 (dims w) K rfl rfl).symm c) = ix3 b m c := by
  have c3 := contrEquiv1_symm_val (dims w) K rfl rfl c
  funext ax; apply Fin.ext
  match ax with
  | ⟨0, _⟩ => simp [DotDims.rhsIdx]; rfl
  | ⟨1, _⟩ => simp [DotDims.rhsIdx]; rfl
  | ⟨2, _⟩ => simp [DotDims.rhsIdx]; exact c3

/-- The contraction's sum at (b, n, m), re-indexed by the contracted coordinate. -/
theorem contraction_sum (A : (⟨3, ![B, N, K]⟩ : Shape).Idx → EReal) (C : (⟨3, ![B, M, K]⟩ : Shape).Idx → EReal)
    (b : Fin B) (n : Fin N) (m : Fin M) :
    ∑ k : (dims w).contr.Idx, A ((dims w).lhsIdx (ix3 b n m) k) * C ((dims w).rhsIdx (ix3 b n m) k)
      = ∑ c : Fin K, A (ix3 b n c) * C (ix3 b m c) := by
  rw [← Equiv.sum_comp (contrEquiv1 (dims w) K rfl rfl).symm]
  refine Finset.sum_congr rfl fun c _ => ?_
  rw [lhsIdx_eq, rhsIdx_eq]

/-- The host's general dot product with these dimension numbers, at the ideal values, read at (b, n, m). -/
theorem dotGeneral_apply {φ₁ φ₂ : FTy} (prec : Option ContractPrecision)
    (A : FVec Ideal ⟨3, ![B, N, K]⟩ φ₁) (C : FVec Ideal ⟨3, ![B, M, K]⟩ φ₂) (b : Fin B) (n : Fin N) (m : Fin M) :
    Host.dotGeneral (dims w) prec A C (ix3 b n m) = ∑ c : Fin K, A (ix3 b n c) * C (ix3 b m c) := by
  show FloatOps.dotGeneral _ prec _ A C (ix3 b n m) = _
  rw [Ideal.dotGeneral_apply]
  exact contraction_sum w A C b n m

/-- The vector unit's matrix product with these dimension numbers into a zero accumulator, at the ideal values, read at
    (b, n, m): the same sum. -/
theorem matmul_zero_apply {φ₁ φ₂ : FTy} (prec : Option ContractPrecision)
    (A : FVec Ideal ⟨3, ![B, N, K]⟩ φ₁) (C : FVec Ideal ⟨3, ![B, M, K]⟩ φ₂) (b : Fin B) (n : Fin N) (m : Fin M) :
    matmul (dims w) prec A C (constant ⟨3, ![B, N, M]⟩ .f32 0x00000000#32) (ix3 b n m)
      = ∑ c : Fin K, A (ix3 b n c) * C (ix3 b m c) := by
  show FloatOps.matmul _ prec A C (constant (F := Ideal) ⟨3, ![B, N, M]⟩ .f32 0x00000000#32) (ix3 b n m) = _
  rw [Ideal.matmul_constant_zero_apply]
  exact contraction_sum w A C b n m

end Cert.Lib.RowsByRows

end
-- ==== Proof.Body.lean ====
/-
  ONE GRID POINT: what the body leaves in the output block, entry by entry.
-/
import proofs.«138315_j87076166959108_1_alg».proof.Proof.Gen.KernelIdeal.Frame
import proofs.«138315_j87076166959108_1_alg».proof.Proof.LibRowsByRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Body

open Cert.KernelIdeal Cert.KernelIdeal.Gen Idealize.ShloMosaic Idealize.ShloMosaic.TcCoe Idealize.SL.Sem
open Idealize.ShloMosaic.ValueIdx

open Idealize.ShloMosaic.Tactic

variable {F : FTy → Type} [FloatOps F]

/-! ## One tap's payload, and the scratch as one function

The body loads the band X of four input rows 2·i … 2·i + 3 and, for each of the nine taps (kh, kw), writes into the sixteen
lanes from (3·kh + kw)·16 of the scratch the band cut to rows kh, kh + 1 and columns kw … kw + 61, its 1024 lanes split
[64, 16] and its two rows of 62 columns merged into 124 positions. The nine writes tile the scratch, so what is loaded back
is ONE function of the scratch index (position p, sample b, feature g): X at row p / 62 + g / 16 / 3, column
p % 62 + g / 16 % 3, lane b·16 + g % 16. The output is the batched product of the weight block by that scratch, rows by
rows over the feature axis. -/

/-- One tap's store payload at an index: the band X of four input rows, cut to rows kh..kh+1 and columns kw..kw+61, with
    its 1024 lanes split [64, 16] and its two rows of 62 columns merged into 124 positions, read at (p, b, cc), is X at
    row p / 62 + kh, column p % 62 + kw, lane b·16 + cc. -/
private theorem tap_apply {α : Type} (kh kw : Nat) (hkh : kh ≤ 2) (hkw : kw ≤ 2) (X : S4x64x1024.Idx → α)
    (h1 : S4x64x1024.Slices ![kh, 0, 0] S2x64x1024) (h2 : S2x64x1024.Slices ![0, kw, 0] S2x62x1024)
    (h3 : S2x62x1024.ShapeCasts S2x62x64x16) (h4 : S2x62x64x16.ShapeCasts S124x64x16)
    (p : Fin 124) (b : Fin 64) (cc : Fin 16) :
    shapeCast S124x64x16 (shapeCast S2x62x64x16
        (extractStridedSlice S2x62x1024 ![0, kw, 0] (extractStridedSlice S2x64x1024 ![kh, 0, 0] X h1) h2) h3) h4 (ix3 p b cc)
      = X (ix3 (⟨p.val / 62 + kh, by omega⟩ : Fin 4) (⟨p.val % 62 + kw, by omega⟩ : Fin 64) (⟨b.val * 16 + cc.val, by omega⟩ : Fin 1024)) := by
  -- [124, 64, 16] at (p, b, cc) is [2, 62, 64, 16] at (p / 62, p % 62, b, cc)
  refine (shapeCast_apply _ _ (ix3 p b cc)
    (ix4 (⟨p.val / 62, by omega⟩ : Fin 2) (⟨p.val % 62, Nat.mod_lt _ (by decide)⟩ : Fin 62) b cc)
    (by rw [Shape.rowMajor_val_four, Shape.rowMajor_val_three]
        show ((p.val / 62 * 62 + p.val % 62) * 64 + b.val) * 16 + cc.val = (p.val * 64 + b.val) * 16 + cc.val
        have := Nat.div_add_mod p.val 62
        omega)).trans ?_
  -- which is [2, 62, 1024] at (p / 62, p % 62, b·16 + cc)
  refine (shapeCast_apply _ _ _
    (ix3 (⟨p.val / 62, by omega⟩ : Fin 2) (⟨p.val % 62, Nat.mod_lt _ (by decide)⟩ : Fin 62) (⟨b.val * 16 + cc.val, by omega⟩ : Fin 1024))
    (by rw [Shape.rowMajor_val_four, Shape.rowMajor_val_three]
        show (p.val / 62 * 62 + p.val % 62) * 1024 + (b.val * 16 + cc.val) = ((p.val / 62 * 62 + p.val % 62) * 64 + b.val) * 16 + cc.val
        omega)).trans ?_
  -- the column cut shifts the column by kw
  refine (extractStridedSlice_apply _ _ _ _
    (ix3 (⟨p.val / 62, by omega⟩ : Fin 2) (⟨p.val % 62 + kw, by omega⟩ : Fin 64) (⟨b.val * 16 + cc.val, by omega⟩ : Fin 1024))
    (fun a => match a with
      | ⟨0, _⟩ => by show p.val / 62 = 0 + p.val / 62; omega
      | ⟨1, _⟩ => by show p.val % 62 + kw = kw + p.val % 62; omega
      | ⟨2, _⟩ => by show b.val * 16 + cc.val = 0 + (b.val * 16 + cc.val); omega)).trans ?_
  -- and the row cut shifts the row by kh
  exact extractStridedSlice_apply _ _ _ _ _
    (fun a => match a with
      | ⟨0, _⟩ => by show p.val / 62 + kh = kh + p.val / 62; omega
      | ⟨1, _⟩ => by show p.val % 62 + kw = 0 + (p.val % 62 + kw); omega
      | ⟨2, _⟩ => by show b.val * 16 + cc.val = 0 + (b.val * 16 + cc.val); omega)

/-- The scratch as ONE function of its index, over explicit coordinates: position p of the band, sample b, tap-major
    feature g. Feature g belongs to tap g / 16 = 3·kh + kw and channel g % 16, and holds the band X at row p / 62 + kh,
    column p % 62 + kw, lane b·16 + g % 16. -/
private def scratchAt {α : Type} (X : S4x64x1024.Idx → α) (p : Fin 124) (b : Fin 64) (g : Fin 144) : α :=
  X (ix3 (⟨p.val / 62 + g.val / 16 / 3, by omega⟩ : Fin 4) (⟨p.val % 62 + g.val / 16 % 3, by omega⟩ : Fin 64)
    (⟨b.val * 16 + g.val % 16, by omega⟩ : Fin 1024))

/-- The same at an index of the scratch's shape. -/
private def scratchOf {α : Type} (X : S4x64x1024.Idx → α) : S124x64x144.Idx → α := fun y => scratchAt X (y 0) (y 1) (y 2)

/-- The store of tap (kh, kw) is the block of `scratchOf X` its rectangle names: the sixteen lanes from (3·kh + kw)·16 on. -/
private theorem tap_piece {α : Type} (kh kw : Nat) (hkh : kh ≤ 2) (hkw : kw ≤ 2) (X : S4x64x1024.Idx → α)
    (h1 : S4x64x1024.Slices ![kh, 0, 0] S2x64x1024) (h2 : S2x64x1024.Slices ![0, kw, 0] S2x62x1024)
    (h3 : S2x62x1024.ShapeCasts S2x62x64x16) (h4 : S2x62x64x16.ShapeCasts S124x64x16)
    (off : Fin 3 → Nat) (hoff : off = ![0, 0, (kh * 3 + kw) * 16])
    (inb : ∀ a, off a + (![124, 64, 16] : Fin 3 → Nat) a ≤ S124x64x144.size a)
    (x : (Rect.unit (s := S124x64x144) off ![124, 64, 16] inb).shape.Idx) :
    shapeCast S124x64x16 (shapeCast S2x62x64x16
        (extractStridedSlice S2x62x1024 ![0, kw, 0] (extractStridedSlice S2x64x1024 ![kh, 0, 0] X h1) h2) h3) h4 x
      = scratchOf X ((Rect.unit (s := S124x64x144) off ![124, 64, 16] inb).emb x) := by
  subst hoff
  have hx0 : (x 0).val < 124 := (x 0).isLt
  have hx1 : (x 1).val < 64 := (x 1).isLt
  have hx2 : (x 2).val < 16 := (x 2).isLt
  have ex : x = ix3 (⟨(x 0).val, hx0⟩ : Fin 124) (⟨(x 1).val, hx1⟩ : Fin 64) (⟨(x 2).val, hx2⟩ : Fin 16) := by
    funext a; match a with | ⟨0, _⟩ => rfl | ⟨1, _⟩ => rfl | ⟨2, _⟩ => rfl
  refine (congrArg _ ex).trans ((tap_apply kh kw hkh hkw X h1 h2 h3 h4 _ _ _).trans ?_)
  unfold scratchOf scratchAt
  congr 1; funext a
  match a with
  | ⟨0, _⟩ => apply Fin.ext; show (x 0).val / 62 + kh = (0 + 1 * (x 0).val) / 62 + ((kh * 3 + kw) * 16 + 1 * (x 2).val) / 16 / 3; omega
  | ⟨1, _⟩ => apply Fin.ext; show (x 0).val % 62 + kw = (0 + 1 * (x 0).val) % 62 + ((kh * 3 + kw) * 16 + 1 * (x 2).val) / 16 % 3; omega
  | ⟨2, _⟩ => apply Fin.ext; show (x 1).val * 16 + (x 2).val = (0 + 1 * (x 1).val) * 16 + ((kh * 3 + kw) * 16 + 1 * (x 2).val) % 16; omega

/-! ## The output block as the last payload, and the scratch loaded back -/

/-- The zero offsets of a whole-block access, as a constant function. -/
private theorem hz3 : (![0, 0, 0] : Fin 3 → Nat) = fun _ => 0 := by
  funext a; match a with | ⟨0, _⟩ => rfl | ⟨1, _⟩ => rfl | ⟨2, _⟩ => rfl

/-- The output block is the body's last payload of the scratch as loaded back and the weight block. -/
private theorem out_eq_payload (c : Dev nD) (i : grid0.Coords)
    (arg1 : Memref sig .tc .vmem S64x64x1024 .bf16) (harg1 : arg1.IsWhole)
    (arg2 : Memref sig .tc .vmem S124x32x144 .bf16) (harg2 : arg2.IsWhole)
    (arg3 : Memref sig .tc .vmem S124x32x64 .bf16) (harg3 : arg3.IsWhole)
    (arg4 : Memref sig .tc .vmem S124x64x144 .bf16) (harg4 : arg4.IsWhole)
    (x0 : Vec F S64x64x1024 .bf16) (x1 : Vec F S124x32x144 .bf16) :
    out0_A_2 (F := F) c i arg1 harg1 arg2 harg2 arg3 harg3 arg4 harg4 x0 x1
      = k0_pay14 (kernelRun0_A.sl.v62 c i arg1 harg1 arg4 x0) x1 := by
  unfold out0_A_2
  rw [View.read_writes_eq_canon _ _ _ (cover0_A_2 c i arg1 harg1 arg2 harg2 arg3 harg3 arg4 harg4 x0 x1)]
  unfold kernelRun0_A
  dsimp only
  rw [View.canon_unit_zero hz3]
  simp only [View.readAt_eq_ld, harg2.read_unread, View.ld_unit_zero (S := S124x32x144) hz3]

/-- The scratch as loaded back after the nine stores is `scratchOf` of the four-row band loaded from the resident input. -/
private theorem scratch_eq (c : Dev nD) (i : grid0.Coords)
    (arg1 : Memref sig .tc .vmem S64x64x1024 .bf16) (harg1 : arg1.IsWhole)
    (arg4 : Memref sig .tc .vmem S124x64x144 .bf16)
    (x0 : Vec F S64x64x1024 .bf16) :
    kernelRun0_A.sl.v62 (F := F) c i arg1 harg1 arg4 x0
      = scratchOf (View.ld x0 (Rect.unit (k0_off1 i) S4x64x1024.size (k0_off1_inb i))) := by
  sl_unfold_run_names
  simp only [View.readAt_eq_ld, harg1.read_unread, k0_pay9, k0_pay10, k0_pay11, k0_pay12, k0_pay13, shapeCast_self]
  refine (View.readCov_eq_canon_ld _ _ _ ?cover).trans ?_
  case cover => exact View.cover_of_tiledL _ S124x64x16.size (by sl_kernel_rfl)
  rw [View.ld_unit_zero hz3]
  funext y
  refine View.canon_apply_of_pieces _ _ ?_ y (View.cover_of_tiledL (s := S124x64x144) _ ![124, 64, 16] (by sl_kernel_rfl) y)
  intro pc hpc
  rcases List.mem_cons.mp hpc with rfl | hpc
  · intro x; dsimp only at x ⊢; exact tap_piece 2 2 (by omega) (by omega) _ _ _ _ _ _ (by rfl) _ x
  rcases List.mem_cons.mp hpc with rfl | hpc
  · intro x; dsimp only at x ⊢; exact tap_piece 2 1 (by omega) (by omega) _ _ _ _ _ _ (by rfl) _ x
  rcases List.mem_cons.mp hpc with rfl | hpc
  · intro x; dsimp only at x ⊢; exact tap_piece 2 0 (by omega) (by omega) _ _ _ _ _ _ (by rfl) _ x
  rcases List.mem_cons.mp hpc with rfl | hpc
  · intro x; dsimp only at x ⊢; exact tap_piece 1 2 (by omega) (by omega) _ _ _ _ _ _ (by rfl) _ x
  rcases List.mem_cons.mp hpc with rfl | hpc
  · intro x; dsimp only at x ⊢; exact tap_piece 1 1 (by omega) (by omega) _ _ _ _ _ _ (by rfl) _ x
  rcases List.mem_cons.mp hpc with rfl | hpc
  · intro x; dsimp only at x ⊢; exact tap_piece 1 0 (by omega) (by omega) _ _ _ _ _ _ (by rfl) _ x
  rcases List.mem_cons.mp hpc with rfl | hpc
  · intro x; dsimp only at x ⊢; exact tap_piece 0 2 (by omega) (by omega) _ _ _ _ _ _ (by rfl) _ x
  rcases List.mem_cons.mp hpc with rfl | hpc
  · intro x; dsimp only at x ⊢; exact tap_piece 0 1 (by omega) (by omega) _ _ _ _ _ _ (by rfl) _ x
  rcases List.mem_cons.mp hpc with rfl | hpc
  · intro x; dsimp only at x ⊢; exact tap_piece 0 0 (by omega) (by omega) _ _ _ _ _ _ (by rfl) _ x
  nomatch hpc

/-! ## The row offset, and the block at an index -/

/-- The band's first row: the row offset the body computes, 2·i as a 32-bit word, is the number 2·i (i < 31). -/
private theorem off_row (n : Nat) (h : n < 31) :
    (Scalar.indexCast (Scalar.muli (BitVec.ofNat 32 n) 2#32)).toNat = 2 * n := by
  show (BitVec.ofNat 32 n * 2#32).toNat = 2 * n
  rw [BitVec.toNat_mul, BitVec.toNat_ofNat]
  show n % 2 ^ 32 * 2 % 2 ^ 32 = 2 * n
  omega

/-- The output block of grid point `i` at (position pt of the band, output channel o, sample b): the sum over the
    tap-major features g of the weight block at (pt, o, g) times the resident input at row 2·i + pt / 62 + kh(g),
    column pt % 62 + kw(g), lane b·16 + c(g). -/
theorem out_apply (c : Dev nD) (i : grid0.Coords)
    (arg1 : Memref sig .tc .vmem S64x64x1024 .bf16) (harg1 : arg1.IsWhole)
    (arg2 : Memref sig .tc .vmem S124x32x144 .bf16) (harg2 : arg2.IsWhole)
    (arg3 : Memref sig .tc .vmem S124x32x64 .bf16) (harg3 : arg3.IsWhole)
    (arg4 : Memref sig .tc .vmem S124x64x144 .bf16) (harg4 : arg4.IsWhole)
    (x0 : Vec Ideal S64x64x1024 .bf16) (x1 : Vec Ideal S124x32x144 .bf16)
    (pt : Fin 124) (o : Fin 32) (b : Fin 64) :
    (out0_A_2 (F := Ideal) c i arg1 harg1 arg2 harg2 arg3 harg3 arg4 harg4 x0 x1 : S124x32x64.Idx → EReal) (ix3 pt o b)
      = ∑ g : Fin 144, (x1 : S124x32x144.Idx → EReal) (ix3 pt o g)
          * (x0 : S64x64x1024.Idx → EReal) (ix3 (⟨2 * (i 0).val + pt.val / 62 + g.val / 16 / 3, by have h31 : (i 0).val < 31 := (i 0).isLt; omega⟩ : Fin 64)
              (⟨pt.val % 62 + g.val / 16 % 3, by omega⟩ : Fin 64) (⟨b.val * 16 + g.val % 16, by omega⟩ : Fin 1024)) := by
  have h31 : (i 0).val < 31 := (i 0).isLt
  refine (congrFun (out_eq_payload (F := Ideal) c i arg1 harg1 arg2 harg2 arg3 harg3 arg4 harg4 x0 x1) (ix3 pt o b)).trans ?_
  rw [scratch_eq (F := Ideal) c i arg1 harg1 arg4 x0]
  unfold k0_pay14
  rw [shapeCast_self, truncf_apply]
  refine (Cert.Lib.RowsByRows.matmul_zero_apply (φ₁ := .bf16) (φ₂ := .bf16) dot_S124x32x144_S124x64x144_S124x32x64_2_2_1_1_0_0_wf none x1
    (scratchOf (α := Ideal .bf16) (View.ld x0 (Rect.unit (k0_off1 i) S4x64x1024.size (k0_off1_inb i)))) pt o b).trans ?_
  have h0 : k0_off1 i 0 = 2 * (i 0).val := off_row _ h31
  have h1 : k0_off1 i 1 = 0 := rfl
  have h2 : k0_off1 i 2 = 0 := rfl
  refine Finset.sum_congr rfl fun g _ => congrArg (x1 (ix3 pt o g) * ·) ?_
  unfold scratchOf scratchAt
  show x0 _ = x0 _
  refine congrArg x0 (funext fun a => ?_)
  match a with
  | ⟨0, _⟩ => apply Fin.ext; show k0_off1 i 0 + 1 * (pt.val / 62 + g.val / 16 / 3) = 2 * (i 0).val + pt.val / 62 + g.val / 16 / 3; omega
  | ⟨1, _⟩ => apply Fin.ext; show k0_off1 i 1 + 1 * (pt.val % 62 + g.val / 16 % 3) = pt.val % 62 + g.val / 16 % 3; omega
  | ⟨2, _⟩ => apply Fin.ext; show k0_off1 i 2 + 1 * (b.val * 16 + g.val % 16) = b.val * 16 + g.val % 16; omega

end Cert.KernelIdeal.Body

end
-- ==== Proof.Blocks.lean ====
/-
  FROM THE BLOCKS TO THE ARRAY.

  Grid point t (of 31) writes rows [124·t, 124·t + 124) of the region's output array [3844, 32, 64]: two output rows
  oh ∈ {2t, 2t + 1} of 62 positions each. Its entry (pt, o, b) is the sum over the tap-major features g of the weight
  block at (pt, o, g) times the resident input at (2t + pt / 62 + kh(g), pt % 62 + kw(g), b·16 + c(g)). Read through
  the arrays the region finds, that is the convolution at sample b, output channel o and output position
  p = 124·t + pt = oh·62 + ow, with the features numbered tap-major and the weight factor first; the reindexing law of
  the specification makes it the convolution itself. The 31 blocks tile the array, so the array ends as that ONE
  function of the two arguments.
-/
import proofs.«138315_j87076166959108_1_alg».proof.Proof.Gen.KernelIdeal.Frame
import proofs.«138315_j87076166959108_1_alg».proof.Proof.Spec
import proofs.«138315_j87076166959108_1_alg».proof.Proof.HostPre
import proofs.«138315_j87076166959108_1_alg».proof.Proof.Body
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Spec Cert.KernelIdeal.HostPre

variable (m : (ℓ : Loc nD τ sig) → Buf (Elt Ideal) ℓ)

/-- The output array as ONE function of the arguments: entry (p, o, b) is the convolution at sample b, output
    channel o and output position p = oh·62 + ow. -/
def outArr (c : Dev nD) : S3844x32x64.Idx → EReal := fun j =>
  convAt (argX m c) (argK m c) (⟨(j 2).val, (j 2).isLt⟩ : Fin 64) (⟨(j 1).val, (j 1).isLt⟩ : Fin 32)
    (⟨(j 0).val / 62, by have h : (j 0).val < 3844 := (j 0).isLt; omega⟩ : Fin 62) (⟨(j 0).val % 62, by omega⟩ : Fin 62)

theorem outArr_ix3 (c : Dev nD) (p : Fin 3844) (o : Fin 32) (b : Fin 64) :
    outArr m c (ix3 p o b) = convAt (argX m c) (argK m c) b o (⟨p.val / 62, by omega⟩ : Fin 62) (⟨p.val % 62, by omega⟩ : Fin 62) := rfl

/-- The printed index maps over the grid: the weight and output blocks move with the point along axis 0, the input
    block is the whole array, and the point's grid coordinate is its number. -/
theorem idx_facts : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ (grid0.coords t 0).val = t.val :=
  (by decide +kernel : ∀ t : Fin grid0.N, _)

theorem t_lt (t : Fin cfg0.N) : t.val < 31 := lt_of_lt_of_eq t.isLt N_0

/-- The weight block at point t, entry (pt, o, g): the weights at position 124·t + pt, the channel-major number of g. -/
theorem wblk_apply (c : Dev nD) (t : Fin cfg0.N) (pt : Fin 124) (o : Fin 32) (g : Fin 144) :
    (iblk m c 1 t : S124x32x144.Idx → EReal) (ix3 pt o g)
      = argK m c (ix3 (⟨t.val * 124 + pt.val, by have := t_lt t; omega⟩ : Fin 3844) (featOf g) o) := by
  obtain ⟨-, -, -, e0, e1, e2, -⟩ := idx_facts t
  have ht := t_lt t
  refine Eq.trans ?_ (wgt_apply m c (⟨t.val * 124 + pt.val, by omega⟩ : Fin 3844) o g)
  show V m c main_v8 (((cfg0.win 1).blk t).view.emb (ix3 pt o g)) = _
  refine congrArg (V m c main_v8) ?_
  funext a; apply Fin.ext
  match a with
  | ⟨0, _⟩ => show win0_1.index t (0 : Fin 3) * 124 + 1 * pt.val = t.val * 124 + pt.val; omega
  | ⟨1, _⟩ => show win0_1.index t (1 : Fin 3) * 32 + 1 * o.val = o.val; omega
  | ⟨2, _⟩ => show win0_1.index t (2 : Fin 3) * 144 + 1 * g.val = g.val; omega

/-- The resident input block (the whole array at every point), entry (h, w, q): the input at sample q / 16,
    channel q % 16, row h, column w. -/
theorem xblk_apply (c : Dev nD) (t : Fin cfg0.N) (h w : Fin 64) (q : Fin 1024) :
    (iblk m c 0 t : S64x64x1024.Idx → EReal) (ix3 h w q)
      = argX m c (ix4 (⟨q.val / 16, by omega⟩ : Fin 64) (⟨q.val % 16, by omega⟩ : Fin 16) h w) := by
  obtain ⟨e0, e1, e2, -⟩ := idx_facts t
  refine Eq.trans ?_ (xin_apply m c h w q)
  show V m c main_v2 (((cfg0.win 0).blk t).view.emb (ix3 h w q)) = _
  refine congrArg (V m c main_v2) ?_
  funext a; apply Fin.ext
  match a with
  | ⟨0, _⟩ => show win0_0.index t (0 : Fin 3) * 64 + 1 * h.val = h.val; omega
  | ⟨1, _⟩ => show win0_0.index t (1 : Fin 3) * 64 + 1 * w.val = w.val; omega
  | ⟨2, _⟩ => show win0_0.index t (2 : Fin 3) * 1024 + 1 * q.val = q.val; omega

/-- WHAT POINT t WRITES BACK is block t of `outArr`. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  unfold outsAt0
  obtain ⟨-, -, -, -, -, -, e0, e1, e2, ec⟩ := idx_facts t
  have ht := t_lt t
  funext y
  obtain ⟨pt, o, b, rfl⟩ : ∃ (pt : Fin 124) (o : Fin 32) (b : Fin 64), y = ix3 pt o b := ⟨y 0, y 1, y 2, eq_ix3 y⟩
  have hemb : ((cfg0.win 2).blk t).view.emb (ix3 pt o b) = ix3 (⟨t.val * 124 + pt.val, by omega⟩ : Fin 3844) o b := by
    funext a; apply Fin.ext
    match a with
    | ⟨0, _⟩ => show win0_2.index t (0 : Fin 3) * 124 + 1 * pt.val = t.val * 124 + pt.val; omega
    | ⟨1, _⟩ => show win0_2.index t (1 : Fin 3) * 32 + 1 * o.val = o.val; omega
    | ⟨2, _⟩ => show win0_2.index t (2 : Fin 3) * 64 + 1 * b.val = b.val; omega
  show out0_A_2 c (grid0.coords t) (ms0_0 t) (hs0_0 t) (ms0_1 t) (hs0_1 t) (ms0_2 t) (hs0_2 t) scM0_0 (Memref.isWhole_whole _) (iblk m c 0 t) (iblk m c 1 t) (ix3 pt o b)
      = outArr m c (((cfg0.win 2).blk t).view.emb (ix3 pt o b))
  rw [hemb, outArr_ix3]
  refine (Body.out_apply c (grid0.coords t) (ms0_0 t) (hs0_0 t) (ms0_1 t) (hs0_1 t) (ms0_2 t) (hs0_2 t) scM0_0 (Memref.isWhole_whole _) (iblk m c 0 t) (iblk m c 1 t) pt o b).trans ?_
  refine Eq.trans ?_ (convAt_tapMajor (argX m c) (argK m c) b o _ _)
  refine Finset.sum_congr rfl fun g _ => ?_
  rw [wblk_apply, xblk_apply]
  congr 2
  · refine congrArg (fun p => ix3 p (featOf g) o) (Fin.ext ?_)
    show t.val * 124 + pt.val = (t.val * 124 + pt.val) / 62 * 62 + (t.val * 124 + pt.val) % 62
    omega
  · have hg := g.isLt
    funext a; apply Fin.ext
    match a with
    | ⟨0, _⟩ => show (b.val * 16 + g.val % 16) / 16 = b.val; omega
    | ⟨1, _⟩ => show (b.val * 16 + g.val % 16) % 16 = g.val % 16; omega
    | ⟨2, _⟩ => show 2 * (grid0.coords t 0).val + pt.val / 62 + g.val / 16 / 3 = (t.val * 124 + pt.val) / 62 + g.val / 16 / 3; omega
    | ⟨3, _⟩ => show pt.val % 62 + g.val / 16 % 3 = (t.val * 124 + pt.val) % 62 + g.val / 16 % 3; omega

/-- An index of the array is in point t's block iff each coordinate is in the block's range on its axis. -/
theorem mem_blk (t : Fin cfg0.N) (i : S3844x32x64.Idx) :
    i ∈ ((cfg0.win 2).blk t).view.set ↔ ∀ a : Fin 3, win0_2.index t a * S124x32x64.size a ≤ (i a).val ∧ (i a).val < win0_2.index t a * S124x32x64.size a + S124x32x64.size a := by
  show i ∈ ((View.whole main_v9).slice (win0_2.rect t)).set ↔ _
  rw [View.set_slice_whole, Rect.mem_set_unit]
  exact Iff.rfl

/-- The 31 blocks cover the array: row p lies in the block of point p / 124. -/
theorem cover (i : S3844x32x64.Idx) : ∃ t : Fin cfg0.N, (cfg0.win 2).flush t = true ∧ i ∈ ((cfg0.win 2).blk t).view.set := by
  have h0 : (i 0).val < 3844 := (i 0).isLt
  have h1 : (i 1).val < 32 := (i 1).isLt
  have h2 : (i 2).val < 64 := (i 2).isLt
  let t : Fin cfg0.N := ⟨(i 0).val / 124, by rw [show cfg0.N = 31 from N_0]; omega⟩
  obtain ⟨-, -, -, -, -, -, e0, e1, e2, -⟩ := idx_facts t
  have et : t.val = (i 0).val / 124 := rfl
  refine ⟨t, flush0_2 t, ?_⟩
  rw [mem_blk]
  intro a
  match a with
  | ⟨0, _⟩ => show win0_2.index t (0 : Fin 3) * 124 ≤ (i 0).val ∧ (i 0).val < win0_2.index t (0 : Fin 3) * 124 + 124; omega
  | ⟨1, _⟩ => show win0_2.index t (1 : Fin 3) * 32 ≤ (i 1).val ∧ (i 1).val < win0_2.index t (1 : Fin 3) * 32 + 32; omega
  | ⟨2, _⟩ => show win0_2.index t (2 : Fin 3) * 64 ≤ (i 2).val ∧ (i 2).val < win0_2.index t (2 : Fin 3) * 64 + 64; omega

/-- THE ARRAY after the region. -/
theorem final (c : Dev nD) : (dats m 0 c).arrAt 2 cfg0.N = outArr m c :=
  (dats m 0 c).arrAt_eq_of_cover 2 (outArr m c) (fun t _ => flushed_eq m c t) (cover)

end Cert.KernelIdeal.Blocks

end
-- ==== Proof.KerRun.lean ====
/-
  THE KERNEL PROGRAM'S RESULT.

  After the region, three host operations re-lay its output array [3844, 32, 64]: a reshape to [62, 62, 32, 64]
  (position p = oh·62 + ow splits into its row and column), a transpose to [64, 32, 62, 62] (sample, output channel,
  row, column) and a change of float format (the identity on extended reals). So the result at (b, o, oh, ow) is the
  region's array at (oh·62 + ow, o, b): the convolution.
-/
import proofs.«138315_j87076166959108_1_alg».proof.Proof.Blocks
import Idealize.ShloMosaic.Lib.StableHlo.Run
import Idealize.ShloMosaic.Lib.Pipeline.Value
import Idealize.ShloMosaic.Lib.ValueIdx

set_option maxRecDepth 16384

noncomputable section

namespace Cert.KernelIdeal.KerRun

open Cert.KernelIdeal Cert.KernelIdeal.Gen Idealize.ShloMosaic Idealize.ShloMosaic.TcCoe Idealize.SL.Sem
open Idealize.ShloMosaic.StableHlo Idealize.ShloMosaic.ValueIdx Cert.Spec Cert.KernelIdeal.HostPre Cert.KernelIdeal.Blocks

variable (m : (ℓ : Loc nD τ sig) → Buf (Elt Ideal) ℓ)

/-- The result buffer after the three operations that follow the region: the convolution of the two arguments. -/
theorem tail_eq (c : Dev nD) :
    (Pipeline.afterTail₀ cfgs (dats m) 0 (V0 m) [hostOps1] c main_v12 : S64x32x62x62.Idx → EReal) = conv (argX m c) (argK m c) := by
  unfold Pipeline.afterTail₀
  show StableHlo.after hostOps1 _ (Proc.devRef .tc main_v12) = _
  after_results
  have hw : (Pipeline.withArrays (cfgs 0).spec c (V0 m c) (fun w => (dats m 0 c).arrAt w (cfgs 0).N) (Proc.tc.devRef main_v9) : S3844x32x64.Idx → EReal) = outArr m c :=
    (Pipeline.withArrays_arr spec0 launch0.win.arr_inj c _ _ 2).trans (final m c)
  funext i
  obtain ⟨b, o, oh, ow, rfl⟩ : ∃ (b : Fin 64) (o : Fin 32) (oh ow : Fin 62), i = ix4 b o oh ow := ⟨i 0, i 1, i 2, i 3, eq_ix4 i⟩
  rw [conv_ix4]
  rw [extf_apply]
  refine (transpose_apply _ _ _ (ix4 b o oh ow) (ix4 oh ow o b) ?_).trans ?_
  · intro a
    match a with
    | ⟨0, _⟩ => rfl
    | ⟨1, _⟩ => rfl
    | ⟨2, _⟩ => rfl
    | ⟨3, _⟩ => rfl
  show shapeCast S62x62x32x64 (Pipeline.withArrays (cfgs 0).spec c (V0 m c) (fun w => (dats m 0 c).arrAt w (cfgs 0).N) (Proc.tc.devRef main_v9)) shapeCasts_S3844x32x64_S62x62x32x64 (ix4 oh ow o b) = _
  rw [hw]
  refine (shapeCast_apply _ _ (ix4 oh ow o b) (ix3 (pos oh ow) o b) ?_).trans ?_
  · rw [Shape.rowMajor_val_three, Shape.rowMajor_val_four]
    rfl
  rw [outArr_ix3]
  have e1 : (⟨(pos oh ow).val / 62, by have := (pos oh ow).isLt; omega⟩ : Fin 62) = oh := by
    apply Fin.ext; show (oh.val * 62 + ow.val) / 62 = oh.val; omega
  have e2 : (⟨(pos oh ow).val % 62, by omega⟩ : Fin 62) = ow := by
    apply Fin.ext; show (oh.val * 62 + ow.val) % 62 = ow.val; omega
  rw [e1, e2]

/-- THE RUN, READ: every weakly fair execution of the program ends with the result buffer at the convolution of the
    two arguments as launched, the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = conv (argX m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v12 (Pipeline.mem_restRefs_of main_v12 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerRun

end
-- ==== Proof.lean ====
/-
  THE CERTIFICATE: a 3×3 convolution with unshared weights, computed band by band, against its plain reference.

  Both idealized programs end with the same function of their two arguments — `Cert.Spec.conv`, the sum over the 144
  features (channel, tap row, tap column) of the input at the shifted position times the weight of the output
  position. The reference gathers the 3×3 patches of the input and contracts them with the weights, features numbered
  channel-major (Proof/RefValue.lean). The other program re-lays the input as [row, column, sample·16 + channel] and the
  weights as [position, output channel, tap-major feature] (Proof/HostPre.lean), runs a grid of 31 bands of two output
  rows, each building its patches by nine slices of four resident input rows and contracting them with its weight
  block (Proof/Body.lean), whose 31 blocks tile the region's array (Proof/Blocks.lean), and re-lays that array into
  the result (Proof/KerRun.lean). The two sums differ by the numbering of the features and the order of the two
  factors: a bijection of the index set and the commutativity of the product of extended reals
  (Proof/Spec.lean, `convAt_tapMajor`). Nothing here needs the inputs to be finite.

  The three frames are the generated frame runs (the reference's is its generated run with the value dropped); the
  idealization rewrote no operation, so its soundness statement is `True`.
-/
import proofs.«138315_j87076166959108_1_alg».proof.Defs
import proofs.«138315_j87076166959108_1_alg».proof.Proof.Gen.Kernel
import proofs.«138315_j87076166959108_1_alg».proof.Proof.Gen.Kernel.Skeleton
import proofs.«138315_j87076166959108_1_alg».proof.Proof.Gen.Kernel.Launch
import proofs.«138315_j87076166959108_1_alg».proof.Proof.Gen.Kernel.Points
import proofs.«138315_j87076166959108_1_alg».proof.Proof.Gen.Kernel.Frame
import proofs.«138315_j87076166959108_1_alg».proof.Proof.Gen.KernelIdeal
import proofs.«138315_j87076166959108_1_alg».proof.Proof.Gen.KernelIdeal.Skeleton
import proofs.«138315_j87076166959108_1_alg».proof.Proof.Gen.KernelIdeal.Launch
import proofs.«138315_j87076166959108_1_alg».proof.Proof.Gen.KernelIdeal.Points
import proofs.«138315_j87076166959108_1_alg».proof.Proof.Gen.KernelIdeal.Frame
import proofs.«138315_j87076166959108_1_alg».proof.Proof.Gen.ReferenceIdeal
import proofs.«138315_j87076166959108_1_alg».proof.Proof.Gen.Pre_finite_inputs
import proofs.«138315_j87076166959108_1_alg».proof.Proof.Gen.ReferenceIdeal.Run
import proofs.«138315_j87076166959108_1_alg».proof.Proof.Gen.ReferenceIdeal.Read
import proofs.«138315_j87076166959108_1_alg».proof.Proof.RefValue
import proofs.«138315_j87076166959108_1_alg».proof.Proof.KerRun
import Idealize.ShloMosaic.Adequacy
import Idealize.ShloMosaic.Init

noncomputable section

namespace Cert.Proof

open Idealize.ShloMosaic Idealize.SL.Sem

/-- The word-level program runs and keeps its arguments: its generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the value dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the two arguments both programs end with the convolution of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.conv (Cert.KernelIdeal.HostPre.argX m c) (Cert.KernelIdeal.HostPre.argK m c),
    Cert.KernelIdeal.KerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
